-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S64x4096 : Shape := ⟨2, ![64, 4096]⟩
abbrev S64 : Shape := ⟨1, ![64]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S4x4096x3 .f32) (main_arg1 : FVec F S64x4096 .f32) (main_arg2 : FVec F S64 .f32) (main_arg3 : FVec F S64 .f32) (main_arg4 : FVec F S64 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S4x4096x3 : Shape := ⟨3, ![4, 4096, 3]⟩
abbrev S64x4096 : Shape := ⟨2, ![64, 4096]⟩
abbrev S64 : Shape := ⟨1, ![64]⟩
abbrev S4x4096x1 : Shape := ⟨3, ![4, 4096, 1]⟩
abbrev S4x4096 : Shape := ⟨2, ![4, 4096]⟩
abbrev S4x1x4096 : Shape := ⟨3, ![4, 1, 4096]⟩
abbrev S4096x64 : Shape := ⟨2, ![4096, 64]⟩
abbrev S1x64 : Shape := ⟨2, ![1, 64]⟩
abbrev S4x4096x64 : Shape := ⟨3, ![4, 4096, 64]⟩
abbrev S1x1024x1 : Shape := ⟨3, ![1, 1024, 1]⟩
abbrev S1x1x512 : Shape := ⟨3, ![1, 1, 512]⟩
abbrev S512x64 : Shape := ⟨2, ![512, 64]⟩
abbrev S1x1024x64 : Shape := ⟨3, ![1, 1024, 64]⟩
abbrev S1024x64 : Shape := ⟨2, ![1024, 64]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩

abbrev nBuf : Space → Nat
  | .hbm => 22
  | .vmem => 20
  | .smem => 0
  | _ => 0

abbrev bufTy : (tb : Table) → Fin (tcTables nBuf tb) → BufTy
  | .hbm, ⟨0, _⟩ => ⟨S4x4096x3, .f32⟩
  | .hbm, ⟨1, _⟩ => ⟨S64x4096, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4x4096x1, .f32⟩
  | .hbm, ⟨6, _⟩ => ⟨S4x4096, .f32⟩
  | .hbm, ⟨7, _⟩ => ⟨S4x4096x1, .f32⟩
  | .hbm, ⟨8, _⟩ => ⟨S4x4096, .f32⟩
  | .hbm, ⟨9, _⟩ => ⟨S4x4096x1, .f32⟩
  | .hbm, ⟨10, _⟩ => ⟨S4x4096, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x1x4096, .f32⟩
  | .hbm, ⟨15, _⟩ => ⟨S4x1x4096, .f32⟩
  | .hbm, ⟨16, _⟩ => ⟨S4x1x4096, .f32⟩
  | .hbm, ⟨17, _⟩ => ⟨S4096x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S4x4096x64, .f32⟩
  | .local _ .vmem, ⟨0, _⟩ => ⟨S1x1024x1, .f32⟩
  | .local _ .vmem, ⟨1, _⟩ => ⟨S1x1024x1, .f32⟩
  | .local _ .vmem, ⟨2, _⟩ => ⟨S1x1024x1, .f32⟩
  | .local _ .vmem, ⟨3, _⟩ => ⟨S1x1024x1, .f32⟩
  | .local _ .vmem, ⟨4, _⟩ => ⟨S1x1024x1, .f32⟩
  | .local _ .vmem, ⟨5, _⟩ => ⟨S1x1024x1, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S512x64, .f32⟩
  | .local _ .vmem, ⟨13, _⟩ => ⟨S512x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x1024x64, .f32⟩
  | .local _ .vmem, ⟨18, _⟩ => ⟨S1x1024x64, .f32⟩
  | .local _ .vmem, ⟨19, _⟩ => ⟨S1024x64, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v48 : BitVec 1 := Scalar.cmpi .eq arg2 c7_i32
  let v49 : BitVec 32 := Scalar.extui v48
  let c0_i32_28 : BitVec 32 := 0#32
  let v50 : BitVec 1 := Scalar.cmpi .ne v49 c0_i32_28
  v50

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

class Facts₀ : Prop where
  slices_S4x4096x3_S4x4096x1_0_0_0 : S4x4096x3.Slices ![0, 0, 0] S4x4096x1
  shapeCasts_S4x4096x1_S4x4096 : S4x4096x1.ShapeCasts S4x4096
  slices_S4x4096x3_S4x4096x1_0_0_1 : S4x4096x3.Slices ![0, 0, 1] S4x4096x1
  slices_S4x4096x3_S4x4096x1_0_0_2 : S4x4096x3.Slices ![0, 0, 2] S4x4096x1
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  transposes_S64x4096_S4096x64_1_0 : S64x4096.Transposes [1, 0] S4096x64
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1024x1_S1024x512 : S1024x1.Broadcasts S1024x512
  broadcasts_S1x512_S1024x512 : S1x512.Broadcasts S1024x512
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1.size a ≤ S4x4096x1.size a
  hwx0_0 : ∀ i : grid0.Coords, EltTy.bits .f32 = 32 ∨ (Rect.block (s := S4x4096x1) S1x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S4x4096x1.size a
  hwx0_1 : ∀ i : grid0.Coords, EltTy.bits .f32 = 32 ∨ (Rect.block (s := S4x4096x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x4096x1.size a
  hwx0_2 : ∀ i : grid0.Coords, EltTy.bits .f32 = 32 ∨ (Rect.block (s := S4x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S4x1x4096.size a
  hwx0_3 : ∀ i : grid0.Coords, EltTy.bits .f32 = 32 ∨ (Rect.block (s := S4x1x4096) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S4x1x4096.size a
  hwx0_4 : ∀ i : grid0.Coords, EltTy.bits .f32 = 32 ∨ (Rect.block (s := S4x1x4096) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S4x1x4096.size a
  hwx0_5 : ∀ i : grid0.Coords, EltTy.bits .f32 = 32 ∨ (Rect.block (s := S4x1x4096) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x64.size a ≤ S4096x64.size a
  hwx0_6 : ∀ i : grid0.Coords, EltTy.bits .f32 = 32 ∨ (Rect.block (s := S4096x64) S512x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x64.size a ≤ S4x4096x64.size a
  hwx0_10 : ∀ i : grid0.Coords, EltTy.bits .f32 = 32 ∨ (Rect.block (s := S4x4096x64) S1x1024x64.size (cc0_transform_10 i) (hinb0_10 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v6) S1x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S512x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16) S1x1024x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S64x4096 : Shape := ⟨2, ![64, 4096]⟩
abbrev S64 : Shape := ⟨1, ![64]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096x64 : Shape := ⟨3, ![4, 4096, 64]⟩
abbrev S1x1x64 : Shape := ⟨3, ![1, 1, 64]⟩
abbrev S4x4096 : Shape := ⟨2, ![4, 4096]⟩
abbrev S4x4096x1 : Shape := ⟨3, ![4, 4096, 1]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S64x4096, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S4x4096x1x3, .f32⟩
  | .hbm, ⟨6, _⟩ => ⟨S4x1x4096x3, .f32⟩
  | .hbm, ⟨7, _⟩ => ⟨S4x4096x4096x3, .f32⟩
  | .hbm, ⟨8, _⟩ => ⟨S4x4096x4096x3, .f32⟩
  | .hbm, ⟨9, _⟩ => ⟨S4x4096x4096x3, .f32⟩
  | .hbm, ⟨10, _⟩ => ⟨S4x4096x4096x3, .f32⟩
  | .hbm, ⟨11, _⟩ => ⟨S_, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .i1⟩
  | .hbm, ⟨16, _⟩ => ⟨S_, .f32⟩
  | .hbm, ⟨17, _⟩ => ⟨S_, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .i1⟩
  | .hbm, ⟨23, _⟩ => ⟨S4x4096x4096, .f32⟩
  | .hbm, ⟨24, _⟩ => ⟨S_, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x64, .f32⟩
  | .hbm, ⟨29, _⟩ => ⟨S1x1x64, .f32⟩
  | .hbm, ⟨30, _⟩ => ⟨S4x4096x64, .f32⟩
  | .hbm, ⟨31, _⟩ => ⟨S4x4096x64, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x64, .f32⟩
  | .hbm, ⟨39, _⟩ => ⟨S4x4096x64, .f32⟩
  | .hbm, ⟨40, _⟩ => ⟨S4x4096x64, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x64, .f32⟩
  | .hbm, ⟨48, _⟩ => ⟨S4x4096x64, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x64, .f32⟩
  | .hbm, ⟨54, _⟩ => ⟨S4x4096x64, .f32⟩
  | .hbm, ⟨55, _⟩ => ⟨S1x1x64, .f32⟩
  | .hbm, ⟨56, _⟩ => ⟨S4x4096x64, .f32⟩
  | .hbm, ⟨57, _⟩ => ⟨S4x4096x64, .f32⟩
  | .hbm, ⟨58, _⟩ => ⟨S1x1x64, .f32⟩
  | .hbm, ⟨59, _⟩ => ⟨S4x4096x64, .f32⟩
  | .hbm, ⟨60, _⟩ => ⟨S4x4096x64, .f32⟩
  | .hbm, ⟨61, _⟩ => ⟨S4x4096x64, .f32⟩
  | .hbm, ⟨62, _⟩ => ⟨S4x4096x64, .f32⟩
  | .hbm, ⟨63, _⟩ => ⟨S_, .f32⟩
  | .hbm, ⟨64, _⟩ => ⟨S4x4096x64, .f32⟩
  | .hbm, ⟨65, _⟩ => ⟨S4x4096x64, .f32⟩
  | .hbm, ⟨66, _⟩ => ⟨S_, .f32⟩
  | .hbm, ⟨67, _⟩ => ⟨S4x4096x64, .f32⟩
  | .hbm, ⟨68, _⟩ => ⟨S4x4096x64, .f32⟩
  | .hbm, ⟨69, _⟩ => ⟨S4x4096x64, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  bcast_S_S4x4096x4096 : S_.BroadcastsInDim S4x4096x4096 (![] : Fin 0 → Fin S4x4096x4096.rank)
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  reducesTo_S4x4096x64_S4x4096_d2 : S4x4096x64.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x64_0_1_2 : S4x4096x1.BroadcastsInDim S4x4096x64 (![0, 1, 2] : Fin 3 → Fin S4x4096x64.rank)
  bcast_S_S4x4096x64 : S_.BroadcastsInDim S4x4096x64 (![] : Fin 0 → Fin S4x4096x64.rank)
  dot_S4x4096x4096_S64x4096_S4x4096x64_2_1_01_0_n_n_wf : DotDims.WF S4x4096x4096 S64x4096 S4x4096x64 [2] [1] [0, 1] [0] [] []

variable [Facts₀]

def dot_S4x4096x4096_S64x4096_S4x4096x64_2_1_01_0_n_n : DotDims S4x4096x4096 S64x4096 S4x4096x64 where
  lhsContracting := [2]
  rhsContracting := [1]
  lhsNonContracting := [0, 1]
  rhsNonContracting := [0]
  lhsBatch := []
  rhsBatch := []
  wf := dot_S4x4096x4096_S64x4096_S4x4096x64_2_1_01_0_n_n_wf

class Facts : Prop extends Facts₀ where

variable [Facts]
-- ==== Proof.Pieces.lean ====
/-
  What one run of the kernel body leaves behind, as values. The body keeps a [1024, 64] accumulator between grid
  points: at the first point of a run of eight it stores zeros and then adds the point's partial product to what it reads
  back; at the other points it adds the partial product to what the point before left; at the last point of the run it
  also writes the output block, computed from the accumulator it has just stored. Each store covers its whole buffer,
  so what a buffer ends holding is the last store's value, and a load after a store reads that store's value.
-/
import proofs.«113791_j3178275799379_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One step of the accumulation: the accumulator plus the product of the point's distance block (from the three
    column blocks x0 x1 x2 and the three row blocks x3 x4 x5) with the weight block x6. -/
abbrev accStep (x0 x1 x2 : Vec F S1x1024x1 .f32) (x3 x4 x5 : Vec F S1x1x512 .f32) (x6 : Vec F S512x64 .f32)
    (acc : Vec F S1024x64 .f32) : Vec F S1024x64 .f32 :=
  k0_pay1 (k0_pay4 x0 x1 x2 x3 x4 x5) (k0_pay5 x0 x1 x2 x3 x4 x5) (Scalar.ofBits .f32 0x00000000#32) x6 acc

/-- At a middle point of a run the accumulator ends at one step over what it held. -/
theorem sout_B (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x1024x64 .f32) (harg13 : arg13.IsWhole) (arg14 : Memref sig .tc .vmem S1024x64 .f32) (harg14 : arg14.IsWhole) (hc0 : ¬cond0_0 i) (hc1 : ¬cond0_1 i) (x0 : Vec F S1x1024x1 .f32) (x1 : Vec F S1x1024x1 .f32) (x2 : Vec F S1x1024x1 .f32) (x3 : Vec F S1x1x512 .f32) (x4 : Vec F S1x1x512 .f32) (x5 : Vec F S1x1x512 .f32) (x6 : Vec F S512x64 .f32) (x7 : Vec F S1x64 .f32) (x8 : Vec F S1x64 .f32) (x9 : Vec F S1x64 .f32) (xs0 : Vec F S1024x64 .f32) :
    sout0_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 = accStep x0 x1 x2 x3 x4 x5 x6 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1) hz3, View.ld_unit_zero (S := S1x1x512) hz3, View.ld_unit_zero (S := S512x64) hz2, View.ld_unit_zero (S := S1024x64) hz2, View.ld_unit_zero (S := S1x64) hz2, View.ld_unit_zero (S := S1x1024x64) hz3]

/-- At the last point of a run likewise. -/
theorem sout_C (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x1024x64 .f32) (harg13 : arg13.IsWhole) (arg14 : Memref sig .tc .vmem S1024x64 .f32) (harg14 : arg14.IsWhole) (hc0 : ¬cond0_0 i) (hc1 : cond0_1 i) (x0 : Vec F S1x1024x1 .f32) (x1 : Vec F S1x1024x1 .f32) (x2 : Vec F S1x1024x1 .f32) (x3 : Vec F S1x1x512 .f32) (x4 : Vec F S1x1x512 .f32) (x5 : Vec F S1x1x512 .f32) (x6 : Vec F S512x64 .f32) (x7 : Vec F S1x64 .f32) (x8 : Vec F S1x64 .f32) (x9 : Vec F S1x64 .f32) (xs0 : Vec F S1024x64 .f32) :
    sout0_C_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 = accStep x0 x1 x2 x3 x4 x5 x6 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1) hz3, View.ld_unit_zero (S := S1x1x512) hz3, View.ld_unit_zero (S := S512x64) hz2, View.ld_unit_zero (S := S1024x64) hz2, View.ld_unit_zero (S := S1x64) hz2, View.ld_unit_zero (S := S1x1024x64) hz3]

/-- At the first point of a run the accumulator ends at one step over the zero block it has just stored. -/
theorem sout_A (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x1024x64 .f32) (harg13 : arg13.IsWhole) (arg14 : Memref sig .tc .vmem S1024x64 .f32) (harg14 : arg14.IsWhole) (hc0 : cond0_0 i) (hc1 : ¬cond0_1 i) (x0 : Vec F S1x1024x1 .f32) (x1 : Vec F S1x1024x1 .f32) (x2 : Vec F S1x1024x1 .f32) (x3 : Vec F S1x1x512 .f32) (x4 : Vec F S1x1x512 .f32) (x5 : Vec F S1x1x512 .f32) (x6 : Vec F S512x64 .f32) (x7 : Vec F S1x64 .f32) (x8 : Vec F S1x64 .f32) (x9 : Vec F S1x64 .f32) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = accStep x0 x1 x2 x3 x4 x5 x6 k0_pay3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S1024x64) hz2, View.readCov_unit_zero (S := S1024x64) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1) hz3, View.ld_unit_zero (S := S1x1x512) hz3, View.ld_unit_zero (S := S512x64) hz2, View.ld_unit_zero (S := S1024x64) hz2, View.ld_unit_zero (S := S1x64) hz2, View.ld_unit_zero (S := S1x1024x64) hz3]

/-- At the last point of a run the output block is the epilogue of the accumulator just stored, with the three rows. -/
theorem out_C (c : Dev nD) (i : grid0.Coords) (arg3 : Memref sig .tc .vmem S1x1024x1 .f32) (harg3 : arg3.IsWhole) (arg4 : Memref sig .tc .vmem S1x1024x1 .f32) (harg4 : arg4.IsWhole) (arg5 : Memref sig .tc .vmem S1x1024x1 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S512x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x1024x64 .f32) (harg13 : arg13.IsWhole) (arg14 : Memref sig .tc .vmem S1024x64 .f32) (harg14 : arg14.IsWhole) (hc0 : ¬cond0_0 i) (hc1 : cond0_1 i) (x0 : Vec F S1x1024x1 .f32) (x1 : Vec F S1x1024x1 .f32) (x2 : Vec F S1x1024x1 .f32) (x3 : Vec F S1x1x512 .f32) (x4 : Vec F S1x1x512 .f32) (x5 : Vec F S1x1x512 .f32) (x6 : Vec F S512x64 .f32) (x7 : Vec F S1x64 .f32) (x8 : Vec F S1x64 .f32) (x9 : Vec F S1x64 .f32) (xs0 : Vec F S1024x64 .f32) :
    out0_C_10 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 = k0_pay2 (accStep x0 x1 x2 x3 x4 x5 x6 xs0) x7 x8 x9 := by
  unfold out0_C_10
  rw [View.read_writes_eq_canon _ _ _ (cover0_C_10 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x1) hz3, View.ld_unit_zero (S := S1x1x512) hz3, View.ld_unit_zero (S := S512x64) hz2, View.ld_unit_zero (S := S1024x64) hz2, View.ld_unit_zero (S := S1x64) hz2, View.ld_unit_zero (S := S1x1024x64) hz3, View.readCov_unit_zero (S := S1024x64) _ hz2]

end Cert.KernelIdeal.Pieces

end
-- ==== Proof.LibCoordPlanes.lean ====
/-
  One coordinate plane of a stack of point clouds, laid out as a column or as a row.

  An array P of extents [B, N, K] holds, for each of B batches, N points of K coordinates. Its plane k — the numbers
  P[b, n, k] — is taken by a unit-stride slice [0:B, 0:N, k:k+1], flattened to [B, N], and then laid out either as a
  stack of columns [B, N, 1] (axes 0, 1 kept) or as a stack of rows [B, 1, N] (axes 0, 2 kept). Read at an index, the
  column stack at (b, n, u) and the row stack at (b, u, n) both hold P[b, n, k], whatever the unit coordinate u:
  the slice shifts the last coordinate by k, the flattening keeps the row-major position b·N + n, and the layouts read
  the flattened array at (b, n). Generic in the element type and in B, N, K.
-/
import Idealize.ShloMosaic.Lib.ValueIdx
import Idealize.ShloMosaic.Lib.Pipeline.Value

namespace Cert.LibCoordPlanes

open Idealize.ShloMosaic Idealize.ShloMosaic.ValueIdx

variable {α : Type}

/-- Plane k flattened to [B, N], read at (b, n): the array at (b, n, k). -/
theorem plane_apply {B N K : ℕ} (k : Fin K) (P : (⟨3, ![B, N, K]⟩ : Shape).Idx → α)
    (hs : (⟨3, ![B, N, K]⟩ : Shape).Slices ![0, 0, k.val] ⟨3, ![B, N, 1]⟩)
    (hc : (⟨3, ![B, N, 1]⟩ : Shape).ShapeCasts ⟨2, ![B, N]⟩) (b : Fin B) (n : Fin N) :
    shapeCast ⟨2, ![B, N]⟩ (extractStridedSlice ⟨3, ![B, N, 1]⟩ ![0, 0, k.val] P hs) hc (ix2 b n) = P (ix3 b n k) := by
  -- the flattening keeps the row-major position: (b·N + n)·1 + 0 = b·N + n
  refine (shapeCast_apply _ hc (ix2 b n) (ix3 b n (0 : Fin 1)) ?_).trans ?_
  · rw [Shape.rowMajor_val_three, Shape.rowMajor_val_two]
    show (b.val * N + n.val) * 1 + 0 = b.val * N + n.val
    omega
  -- the slice shifts the last coordinate by k and keeps the others
  · refine extractStridedSlice_apply _ P hs (ix3 b n (0 : Fin 1)) (ix3 b n k) fun a => ?_
    match a with
    | ⟨0, _⟩ => show b.val = 0 + b.val; omega
    | ⟨1, _⟩ => show n.val = 0 + n.val; omega
    | ⟨2, _⟩ => show k.val = k.val + 0; omega

/-- Plane k as a stack of columns [B, N, 1], read at (b, n, u): the array at (b, n, k). -/
theorem plane_cols_apply {B N K : ℕ} (k : Fin K) (P : (⟨3, ![B, N, K]⟩ : Shape).Idx → α)
    (hs : (⟨3, ![B, N, K]⟩ : Shape).Slices ![0, 0, k.val] ⟨3, ![B, N, 1]⟩)
    (hc : (⟨3, ![B, N, 1]⟩ : Shape).ShapeCasts ⟨2, ![B, N]⟩)
    (hb : (⟨2, ![B, N]⟩ : Shape).BroadcastsInDim ⟨3, ![B, N, 1]⟩ (![0, 1] : Fin 2 → Fin 3))
    (b : Fin B) (n : Fin N) (u : Fin 1) :
    broadcastInDim ⟨3, ![B, N, 1]⟩ ![0, 1] hb
        (shapeCast ⟨2, ![B, N]⟩ (extractStridedSlice ⟨3, ![B, N, 1]⟩ ![0, 0, k.val] P hs) hc) (ix3 b n u)
      = P (ix3 b n k) := by
  -- the column stack reads the flattened plane at (b, n); an axis of extent one has only the coordinate 0
  rw [← plane_apply k P hs hc b n]
  refine broadcastInDim_apply (s := ⟨2, ![B, N]⟩) (t := ⟨3, ![B, N, 1]⟩) ![0, 1] hb _ (ix3 b n u) (ix2 b n) fun a => ?_
  match a with
  | ⟨0, _⟩ =>
    show b.val = if B = 1 then 0 else b.val
    split
    · have := b.isLt; omega
    · rfl
  | ⟨1, _⟩ =>
    show n.val = if N = 1 then 0 else n.val
    split
    · have := n.isLt; omega
    · rfl

/-- Plane k as a stack of rows [B, 1, N], read at (b, u, n): the array at (b, n, k). -/
theorem plane_rows_apply {B N K : ℕ} (k : Fin K) (P : (⟨3, ![B, N, K]⟩ : Shape).Idx → α)
    (hs : (⟨3, ![B, N, K]⟩ : Shape).Slices ![0, 0, k.val] ⟨3, ![B, N, 1]⟩)
    (hc : (⟨3, ![B, N, 1]⟩ : Shape).ShapeCasts ⟨2, ![B, N]⟩)
    (hb : (⟨2, ![B, N]⟩ : Shape).BroadcastsInDim ⟨3, ![B, 1, N]⟩ (![0, 2] : Fin 2 → Fin 3))
    (b : Fin B) (u : Fin 1) (n : Fin N) :
    broadcastInDim ⟨3, ![B, 1, N]⟩ ![0, 2] hb
        (shapeCast ⟨2, ![B, N]⟩ (extractStridedSlice ⟨3, ![B, N, 1]⟩ ![0, 0, k.val] P hs) hc) (ix3 b u n)
      = P (ix3 b n k) := by
  -- the row stack reads the flattened plane at (b, n)
  rw [← plane_apply k P hs hc b n]
  refine broadcastInDim_apply (s := ⟨2, ![B, N]⟩) (t := ⟨3, ![B, 1, N]⟩) ![0, 2] hb _ (ix3 b u n) (ix2 b n) fun a => ?_
  match a with
  | ⟨0, _⟩ =>
    show b.val = if B = 1 then 0 else b.val
    split
    · have := b.isLt; omega
    · rfl
  | ⟨1, _⟩ =>
    show n.val = if N = 1 then 0 else n.val
    split
    · have := n.isLt; omega
    · rfl

end Cert.LibCoordPlanes
-- ==== Proof.Windows.lean ====
/-
  The kernel's ten input windows, read at an index as entries of the argument arrays.

  Before the kernel runs, the host lays the three coordinate planes of positions out twice — as stacks of columns
  [4, 4096, 1] (windows 0, 1, 2) and as stacks of rows [4, 1, 4096] (windows 3, 4, 5) —, transposes W to [4096, 64]
  (window 6) and views bias, gamma, beta as [1, 64] rows (windows 7, 8, 9). Grid point t stands for batch b = t / 32,
  row tile i = (t / 8) mod 4 and reduction tile s = t mod 8. At point t a column window holds rows 1024·i … 1024·i + 1023 of
  its plane for batch b, a row window holds columns 512·s … 512·s + 511 of its plane for batch b, the weight window rows
  512·s … 512·s + 511 of the transposed W, and the three row windows their whole rows. So every block entry is one entry
  of an argument array, at a position given by arithmetic on t.
-/
import proofs.«113791_j3178275799379_1_alg».proof.Proof.Gen.KernelIdeal.Frame
import proofs.«113791_j3178275799379_1_alg».proof.Proof.LibCoordPlanes
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx

namespace Cert.KernelIdeal.Windows

open Cert.KernelIdeal Cert.KernelIdeal.Gen

variable {F : FTy → Type} [FloatOps F]
variable (m : (ℓ : Loc nD τ sig) → Buf (Elt F) ℓ)

/-! ## The window arrays as the host operations' terms, and at an index -/

/-- Window 0's array: plane 0 of positions as a stack of columns. -/
theorem V_v6 (c : Dev nD) : (V m c main_v6 : S4x4096x1.Idx → Elt F .f32) =
    broadcastInDim S4x4096x1 ![0, 1] bcast_S4x4096_S4x4096x1_0_1 (shapeCast S4x4096
      (extractStridedSlice S4x4096x1 ![0, 0, 0] (m ((c : Thread nD τ).loc main_arg0)) slices_S4x4096x3_S4x4096x1_0_0_0)
      shapeCasts_S4x4096x1_S4x4096) := by
  dsimp only [Gen.V, Gen.hostOps0]
  after_results
  rfl

theorem V_v6_apply (c : Dev nD) (b : Fin 4) (n : Fin 4096) (u : Fin 1) :
    V m c main_v6 (ix3 b n u) = m ((c : Thread nD τ).loc main_arg0) (ix3 b n (0 : Fin 3)) := by
  rw [V_v6]
  exact Cert.LibCoordPlanes.plane_cols_apply (0 : Fin 3) _ _ _ _ b n u

/-- Window 1's array: plane 1 of positions as a stack of columns. -/
theorem V_v7 (c : Dev nD) : (V m c main_v7 : S4x4096x1.Idx → Elt F .f32) =
    broadcastInDim S4x4096x1 ![0, 1] bcast_S4x4096_S4x4096x1_0_1 (shapeCast S4x4096
      (extractStridedSlice S4x4096x1 ![0, 0, 1] (m ((c : Thread nD τ).loc main_arg0)) slices_S4x4096x3_S4x4096x1_0_0_1)
      shapeCasts_S4x4096x1_S4x4096) := by
  dsimp only [Gen.V, Gen.hostOps0]
  after_results
  rfl

theorem V_v7_apply (c : Dev nD) (b : Fin 4) (n : Fin 4096) (u : Fin 1) :
    V m c main_v7 (ix3 b n u) = m ((c : Thread nD τ).loc main_arg0) (ix3 b n (1 : Fin 3)) := by
  rw [V_v7]
  exact Cert.LibCoordPlanes.plane_cols_apply (1 : Fin 3) _ _ _ _ b n u

/-- Window 2's array: plane 2 of positions as a stack of columns. -/
theorem V_v8 (c : Dev nD) : (V m c main_v8 : S4x4096x1.Idx → Elt F .f32) =
    broadcastInDim S4x4096x1 ![0, 1] bcast_S4x4096_S4x4096x1_0_1 (shapeCast S4x4096
      (extractStridedSlice S4x4096x1 ![0, 0, 2] (m ((c : Thread nD τ).loc main_arg0)) slices_S4x4096x3_S4x4096x1_0_0_2)
      shapeCasts_S4x4096x1_S4x4096) := by
  dsimp only [Gen.V, Gen.hostOps0]
  after_results
  rfl

theorem V_v8_apply (c : Dev nD) (b : Fin 4) (n : Fin 4096) (u : Fin 1) :
    V m c main_v8 (ix3 b n u) = m ((c : Thread nD τ).loc main_arg0) (ix3 b n (2 : Fin 3)) := by
  rw [V_v8]
  exact Cert.LibCoordPlanes.plane_cols_apply (2 : Fin 3) _ _ _ _ b n u

/-- Window 3's array: plane 0 of positions as a stack of rows. -/
theorem V_v9 (c : Dev nD) : (V m c main_v9 : S4x1x4096.Idx → Elt F .f32) =
    broadcastInDim S4x1x4096 ![0, 2] bcast_S4x4096_S4x1x4096_0_2 (shapeCast S4x4096
      (extractStridedSlice S4x4096x1 ![0, 0, 0] (m ((c : Thread nD τ).loc main_arg0)) slices_S4x4096x3_S4x4096x1_0_0_0)
      shapeCasts_S4x4096x1_S4x4096) := by
  dsimp only [Gen.V, Gen.hostOps0]
  after_results
  rfl

theorem V_v9_apply (c : Dev nD) (b : Fin 4) (u : Fin 1) (j : Fin 4096) :
    V m c main_v9 (ix3 b u j) = m ((c : Thread nD τ).loc main_arg0) (ix3 b j (0 : Fin 3)) := by
  rw [V_v9]
  exact Cert.LibCoordPlanes.plane_rows_apply (0 : Fin 3) _ _ _ _ b u j

/-- Window 4's array: plane 1 of positions as a stack of rows. -/
theorem V_v10 (c : Dev nD) : (V m c main_v10 : S4x1x4096.Idx → Elt F .f32) =
    broadcastInDim S4x1x4096 ![0, 2] bcast_S4x4096_S4x1x4096_0_2 (shapeCast S4x4096
      (extractStridedSlice S4x4096x1 ![0, 0, 1] (m ((c : Thread nD τ).loc main_arg0)) slices_S4x4096x3_S4x4096x1_0_0_1)
      shapeCasts_S4x4096x1_S4x4096) := by
  dsimp only [Gen.V, Gen.hostOps0]
  after_results
  rfl

theorem V_v10_apply (c : Dev nD) (b : Fin 4) (u : Fin 1) (j : Fin 4096) :
    V m c main_v10 (ix3 b u j) = m ((c : Thread nD τ).loc main_arg0) (ix3 b j (1 : Fin 3)) := by
  rw [V_v10]
  exact Cert.LibCoordPlanes.plane_rows_apply (1 : Fin 3) _ _ _ _ b u j

/-- Window 5's array: plane 2 of positions as a stack of rows. -/
theorem V_v11 (c : Dev nD) : (V m c main_v11 : S4x1x4096.Idx → Elt F .f32) =
    broadcastInDim S4x1x4096 ![0, 2] bcast_S4x4096_S4x1x4096_0_2 (shapeCast S4x4096
      (extractStridedSlice S4x4096x1 ![0, 0, 2] (m ((c : Thread nD τ).loc main_arg0)) slices_S4x4096x3_S4x4096x1_0_0_2)
      shapeCasts_S4x4096x1_S4x4096) := by
  dsimp only [Gen.V, Gen.hostOps0]
  after_results
  rfl

theorem V_v11_apply (c : Dev nD) (b : Fin 4) (u : Fin 1) (j : Fin 4096) :
    V m c main_v11 (ix3 b u j) = m ((c : Thread nD τ).loc main_arg0) (ix3 b j (2 : Fin 3)) := by
  rw [V_v11]
  exact Cert.LibCoordPlanes.plane_rows_apply (2 : Fin 3) _ _ _ _ b u j

/-- Window 6's array: W transposed. -/
theorem V_v12 (c : Dev nD) : (V m c main_v12 : S4096x64.Idx → Elt F .f32) =
    transpose S4096x64 [1, 0] (m ((c : Thread nD τ).loc main_arg1)) transposes_S64x4096_S4096x64_1_0 := by
  dsimp only [Gen.V, Gen.hostOps0]
  after_results

theorem V_v12_apply (c : Dev nD) (j : Fin 4096) (f : Fin 64) :
    V m c main_v12 (ix2 j f) = m ((c : Thread nD τ).loc main_arg1) (ix2 f j) := by
  rw [V_v12]
  exact transpose_ix2_apply _ _ j f

/-- Window 7's array: bias as a [1, 64] row. -/
theorem V_v13 (c : Dev nD) : (V m c main_v13 : S1x64.Idx → Elt F .f32) =
    shapeCast S1x64 (m ((c : Thread nD τ).loc main_arg2)) shapeCasts_S64_S1x64 := by
  dsimp only [Gen.V, Gen.hostOps0]
  after_results
  rfl

theorem V_v13_apply (c : Dev nD) (u : Fin 1) (f : Fin 64) :
    V m c main_v13 (ix2 u f) = m ((c : Thread nD τ).loc main_arg2) (ix1 f) := by
  rw [V_v13]
  exact shapeCast_a_1a_apply _ _ u f

/-- Window 8's array: gamma as a [1, 64] row. -/
theorem V_v14 (c : Dev nD) : (V m c main_v14 : S1x64.Idx → Elt F .f32) =
    shapeCast S1x64 (m ((c : Thread nD τ).loc main_arg3)) shapeCasts_S64_S1x64 := by
  dsimp only [Gen.V, Gen.hostOps0]
  after_results
  rfl

theorem V_v14_apply (c : Dev nD) (u : Fin 1) (f : Fin 64) :
    V m c main_v14 (ix2 u f) = m ((c : Thread nD τ).loc main_arg3) (ix1 f) := by
  rw [V_v14]
  exact shapeCast_a_1a_apply _ _ u f

/-- Window 9's array: beta as a [1, 64] row. -/
theorem V_v15 (c : Dev nD) : (V m c main_v15 : S1x64.Idx → Elt F .f32) =
    shapeCast S1x64 (m ((c : Thread nD τ).loc main_arg4)) shapeCasts_S64_S1x64 := by
  dsimp only [Gen.V, Gen.hostOps0]
  after_results
  rfl

theorem V_v15_apply (c : Dev nD) (u : Fin 1) (f : Fin 64) :
    V m c main_v15 (ix2 u f) = m ((c : Thread nD τ).loc main_arg4) (ix1 f) := by
  rw [V_v15]
  exact shapeCast_a_1a_apply _ _ u f

/-! ## Which block each window holds at grid point t -/

theorem idx0 : ∀ t : Fin cfg0.N, win0_0.index t (0 : Fin 3) = t.val / 32 ∧ win0_0.index t (1 : Fin 3) = t.val / 8 % 4 ∧ win0_0.index t (2 : Fin 3) = 0 :=
  (by decide +kernel : ∀ t : Fin grid0.N, _)

theorem idx1 : ∀ t : Fin cfg0.N, win0_1.index t (0 : Fin 3) = t.val / 32 ∧ win0_1.index t (1 : Fin 3) = t.val / 8 % 4 ∧ win0_1.index t (2 : Fin 3) = 0 :=
  (by decide +kernel : ∀ t : Fin grid0.N, _)

theorem idx2 : ∀ t : Fin cfg0.N, win0_2.index t (0 : Fin 3) = t.val / 32 ∧ win0_2.index t (1 : Fin 3) = t.val / 8 % 4 ∧ win0_2.index t (2 : Fin 3) = 0 :=
  (by decide +kernel : ∀ t : Fin grid0.N, _)

theorem idx3 : ∀ t : Fin cfg0.N, win0_3.index t (0 : Fin 3) = t.val / 32 ∧ win0_3.index t (1 : Fin 3) = 0 ∧ win0_3.index t (2 : Fin 3) = t.val % 8 :=
  (by decide +kernel : ∀ t : Fin grid0.N, _)

theorem idx4 : ∀ t : Fin cfg0.N, win0_4.index t (0 : Fin 3) = t.val / 32 ∧ win0_4.index t (1 : Fin 3) = 0 ∧ win0_4.index t (2 : Fin 3) = t.val % 8 :=
  (by decide +kernel : ∀ t : Fin grid0.N, _)

theorem idx5 : ∀ t : Fin cfg0.N, win0_5.index t (0 : Fin 3) = t.val / 32 ∧ win0_5.index t (1 : Fin 3) = 0 ∧ win0_5.index t (2 : Fin 3) = t.val % 8 :=
  (by decide +kernel : ∀ t : Fin grid0.N, _)

theorem idx6 : ∀ t : Fin cfg0.N, win0_6.index t (0 : Fin 2) = t.val % 8 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

/-! ## The blocks, typed by their literal shapes, and read at an index -/

/-- Window 0's block at point t. -/
abbrev blk0 (c : Dev nD) (t : Fin cfg0.N) : Vec F S1x1024x1 .f32 := iblk m c 0 t

/-- Window 1's block at point t. -/
abbrev blk1 (c : Dev nD) (t : Fin cfg0.N) : Vec F S1x1024x1 .f32 := iblk m c 1 t

/-- Window 2's block at point t. -/
abbrev blk2 (c : Dev nD) (t : Fin cfg0.N) : Vec F S1x1024x1 .f32 := iblk m c 2 t

/-- Window 3's block at point t. -/
abbrev blk3 (c : Dev nD) (t : Fin cfg0.N) : Vec F S1x1x512 .f32 := iblk m c 3 t

/-- Window 4's block at point t. -/
abbrev blk4 (c : Dev nD) (t : Fin cfg0.N) : Vec F S1x1x512 .f32 := iblk m c 4 t

/-- Window 5's block at point t. -/
abbrev blk5 (c : Dev nD) (t : Fin cfg0.N) : Vec F S1x1x512 .f32 := iblk m c 5 t

/-- Window 6's block at point t. -/
abbrev blk6 (c : Dev nD) (t : Fin cfg0.N) : Vec F S512x64 .f32 := iblk m c 6 t

/-- Window 7's block at point t. -/
abbrev blk7 (c : Dev nD) (t : Fin cfg0.N) : Vec F S1x64 .f32 := iblk m c 7 t

/-- Window 8's block at point t. -/
abbrev blk8 (c : Dev nD) (t : Fin cfg0.N) : Vec F S1x64 .f32 := iblk m c 8 t

/-- Window 9's block at point t. -/
abbrev blk9 (c : Dev nD) (t : Fin cfg0.N) : Vec F S1x64 .f32 := iblk m c 9 t

/-- A column block entry is positions[b, 1024·i + p, 0]. -/
theorem blk0_apply (c : Dev nD) (t : Fin cfg0.N) (u : Fin 1) (p : Fin 1024) (u' : Fin 1) (b : Fin 4) (n : Fin 4096)
    (hb : b.val = t.val / 32) (hn : n.val = 1024 * (t.val / 8 % 4) + p.val) :
    blk0 m c t (ix3 u p u') = m ((c : Thread nD τ).loc main_arg0) (ix3 b n (0 : Fin 3)) := by
  rw [← V_v6_apply m c b n (0 : Fin 1)]
  show iblk m c 0 t (ix3 u p u') = _
  unfold iblk
  rw [View.read_apply]
  show V m c main_v6 _ = V m c main_v6 _
  congr 1
  funext a
  apply Fin.ext
  have hu : u.val = 0 := by omega
  have hu' : u'.val = 0 := by omega
  match a with
  | ⟨0, _⟩ => show win0_0.index t 0 * 1 + 1 * u.val = b.val; rw [(idx0 t).1]; omega
  | ⟨1, _⟩ => show win0_0.index t 1 * 1024 + 1 * p.val = n.val; rw [(idx0 t).2.1]; omega
  | ⟨2, _⟩ => show win0_0.index t 2 * 1 + 1 * u'.val = 0; rw [(idx0 t).2.2]; omega

/-- A column block entry is positions[b, 1024·i + p, 1]. -/
theorem blk1_apply (c : Dev nD) (t : Fin cfg0.N) (u : Fin 1) (p : Fin 1024) (u' : Fin 1) (b : Fin 4) (n : Fin 4096)
    (hb : b.val = t.val / 32) (hn : n.val = 1024 * (t.val / 8 % 4) + p.val) :
    blk1 m c t (ix3 u p u') = m ((c : Thread nD τ).loc main_arg0) (ix3 b n (1 : Fin 3)) := by
  rw [← V_v7_apply m c b n (0 : Fin 1)]
  show iblk m c 1 t (ix3 u p u') = _
  unfold iblk
  rw [View.read_apply]
  show V m c main_v7 _ = V m c main_v7 _
  congr 1
  funext a
  apply Fin.ext
  have hu : u.val = 0 := by omega
  have hu' : u'.val = 0 := by omega
  match a with
  | ⟨0, _⟩ => show win0_1.index t 0 * 1 + 1 * u.val = b.val; rw [(idx1 t).1]; omega
  | ⟨1, _⟩ => show win0_1.index t 1 * 1024 + 1 * p.val = n.val; rw [(idx1 t).2.1]; omega
  | ⟨2, _⟩ => show win0_1.index t 2 * 1 + 1 * u'.val = 0; rw [(idx1 t).2.2]; omega

/-- A column block entry is positions[b, 1024·i + p, 2]. -/
theorem blk2_apply (c : Dev nD) (t : Fin cfg0.N) (u : Fin 1) (p : Fin 1024) (u' : Fin 1) (b : Fin 4) (n : Fin 4096)
    (hb : b.val = t.val / 32) (hn : n.val = 1024 * (t.val / 8 % 4) + p.val) :
    blk2 m c t (ix3 u p u') = m ((c : Thread nD τ).loc main_arg0) (ix3 b n (2 : Fin 3)) := by
  rw [← V_v8_apply m c b n (0 : Fin 1)]
  show iblk m c 2 t (ix3 u p u') = _
  unfold iblk
  rw [View.read_apply]
  show V m c main_v8 _ = V m c main_v8 _
  congr 1
  funext a
  apply Fin.ext
  have hu : u.val = 0 := by omega
  have hu' : u'.val = 0 := by omega
  match a with
  | ⟨0, _⟩ => show win0_2.index t 0 * 1 + 1 * u.val = b.val; rw [(idx2 t).1]; omega
  | ⟨1, _⟩ => show win0_2.index t 1 * 1024 + 1 * p.val = n.val; rw [(idx2 t).2.1]; omega
  | ⟨2, _⟩ => show win0_2.index t 2 * 1 + 1 * u'.val = 0; rw [(idx2 t).2.2]; omega

/-- A row block entry is positions[b, 512·s + q, 0]. -/
theorem blk3_apply (c : Dev nD) (t : Fin cfg0.N) (u u' : Fin 1) (q : Fin 512) (b : Fin 4) (j : Fin 4096)
    (hb : b.val = t.val / 32) (hj : j.val = 512 * (t.val % 8) + q.val) :
    blk3 m c t (ix3 u u' q) = m ((c : Thread nD τ).loc main_arg0) (ix3 b j (0 : Fin 3)) := by
  rw [← V_v9_apply m c b (0 : Fin 1) j]
  show iblk m c 3 t (ix3 u u' q) = _
  unfold iblk
  rw [View.read_apply]
  show V m c main_v9 _ = V m c main_v9 _
  congr 1
  funext a
  apply Fin.ext
  have hu : u.val = 0 := by omega
  have hu' : u'.val = 0 := by omega
  match a with
  | ⟨0, _⟩ => show win0_3.index t 0 * 1 + 1 * u.val = b.val; rw [(idx3 t).1]; omega
  | ⟨1, _⟩ => show win0_3.index t 1 * 1 + 1 * u'.val = 0; rw [(idx3 t).2.1]; omega
  | ⟨2, _⟩ => show win0_3.index t 2 * 512 + 1 * q.val = j.val; rw [(idx3 t).2.2]; omega

/-- A row block entry is positions[b, 512·s + q, 1]. -/
theorem blk4_apply (c : Dev nD) (t : Fin cfg0.N) (u u' : Fin 1) (q : Fin 512) (b : Fin 4) (j : Fin 4096)
    (hb : b.val = t.val / 32) (hj : j.val = 512 * (t.val % 8) + q.val) :
    blk4 m c t (ix3 u u' q) = m ((c : Thread nD τ).loc main_arg0) (ix3 b j (1 : Fin 3)) := by
  rw [← V_v10_apply m c b (0 : Fin 1) j]
  show iblk m c 4 t (ix3 u u' q) = _
  unfold iblk
  rw [View.read_apply]
  show V m c main_v10 _ = V m c main_v10 _
  congr 1
  funext a
  apply Fin.ext
  have hu : u.val = 0 := by omega
  have hu' : u'.val = 0 := by omega
  match a with
  | ⟨0, _⟩ => show win0_4.index t 0 * 1 + 1 * u.val = b.val; rw [(idx4 t).1]; omega
  | ⟨1, _⟩ => show win0_4.index t 1 * 1 + 1 * u'.val = 0; rw [(idx4 t).2.1]; omega
  | ⟨2, _⟩ => show win0_4.index t 2 * 512 + 1 * q.val = j.val; rw [(idx4 t).2.2]; omega

/-- A row block entry is positions[b, 512·s + q, 2]. -/
theorem blk5_apply (c : Dev nD) (t : Fin cfg0.N) (u u' : Fin 1) (q : Fin 512) (b : Fin 4) (j : Fin 4096)
    (hb : b.val = t.val / 32) (hj : j.val = 512 * (t.val % 8) + q.val) :
    blk5 m c t (ix3 u u' q) = m ((c : Thread nD τ).loc main_arg0) (ix3 b j (2 : Fin 3)) := by
  rw [← V_v11_apply m c b (0 : Fin 1) j]
  show iblk m c 5 t (ix3 u u' q) = _
  unfold iblk
  rw [View.read_apply]
  show V m c main_v11 _ = V m c main_v11 _
  congr 1
  funext a
  apply Fin.ext
  have hu : u.val = 0 := by omega
  have hu' : u'.val = 0 := by omega
  match a with
  | ⟨0, _⟩ => show win0_5.index t 0 * 1 + 1 * u.val = b.val; rw [(idx5 t).1]; omega
  | ⟨1, _⟩ => show win0_5.index t 1 * 1 + 1 * u'.val = 0; rw [(idx5 t).2.1]; omega
  | ⟨2, _⟩ => show win0_5.index t 2 * 512 + 1 * q.val = j.val; rw [(idx5 t).2.2]; omega

/-- A weight block entry is W[f, 512·s + q]. -/
theorem blk6_apply (c : Dev nD) (t : Fin cfg0.N) (q : Fin 512) (f : Fin 64) (j : Fin 4096)
    (hj : j.val = 512 * (t.val % 8) + q.val) :
    blk6 m c t (ix2 q f) = m ((c : Thread nD τ).loc main_arg1) (ix2 f j) := by
  rw [← V_v12_apply m c j f]
  show iblk m c 6 t (ix2 q f) = _
  unfold iblk
  rw [View.read_apply]
  show V m c main_v12 _ = V m c main_v12 _
  congr 1
  funext a
  apply Fin.ext
  match a with
  | ⟨0, _⟩ => show win0_6.index t 0 * 512 + 1 * q.val = j.val; rw [(idx6 t).1]; omega
  | ⟨1, _⟩ => show win0_6.index t 1 * 64 + 1 * f.val = f.val; rw [(idx6 t).2]; omega

/-- The bias block entry is bias[f], at every point. -/
theorem blk7_apply (c : Dev nD) (t : Fin cfg0.N) (u : Fin 1) (f : Fin 64) :
    blk7 m c t (ix2 u f) = m ((c : Thread nD τ).loc main_arg2) (ix1 f) := by
  rw [← V_v13_apply m c (0 : Fin 1) f]
  show iblk m c 7 t (ix2 u f) = _
  unfold iblk
  rw [View.read_apply]
  show V m c main_v13 _ = V m c main_v13 _
  congr 1
  funext a
  apply Fin.ext
  have hu : u.val = 0 := by omega
  match a with
  | ⟨0, _⟩ => show win0_7.index t 0 * 1 + 1 * u.val = 0; rw [(idx7 t).1]; omega
  | ⟨1, _⟩ => show win0_7.index t 1 * 64 + 1 * f.val = f.val; rw [(idx7 t).2]; omega

/-- The gamma block entry is gamma[f], at every point. -/
theorem blk8_apply (c : Dev nD) (t : Fin cfg0.N) (u : Fin 1) (f : Fin 64) :
    blk8 m c t (ix2 u f) = m ((c : Thread nD τ).loc main_arg3) (ix1 f) := by
  rw [← V_v14_apply m c (0 : Fin 1) f]
  show iblk m c 8 t (ix2 u f) = _
  unfold iblk
  rw [View.read_apply]
  show V m c main_v14 _ = V m c main_v14 _
  congr 1
  funext a
  apply Fin.ext
  have hu : u.val = 0 := by omega
  match a with
  | ⟨0, _⟩ => show win0_8.index t 0 * 1 + 1 * u.val = 0; rw [(idx8 t).1]; omega
  | ⟨1, _⟩ => show win0_8.index t 1 * 64 + 1 * f.val = f.val; rw [(idx8 t).2]; omega

/-- The beta block entry is beta[f], at every point. -/
theorem blk9_apply (c : Dev nD) (t : Fin cfg0.N) (u : Fin 1) (f : Fin 64) :
    blk9 m c t (ix2 u f) = m ((c : Thread nD τ).loc main_arg4) (ix1 f) := by
  rw [← V_v15_apply m c (0 : Fin 1) f]
  show iblk m c 9 t (ix2 u f) = _
  unfold iblk
  rw [View.read_apply]
  show V m c main_v15 _ = V m c main_v15 _
  congr 1
  funext a
  apply Fin.ext
  have hu : u.val = 0 := by omega
  match a with
  | ⟨0, _⟩ => show win0_9.index t 0 * 1 + 1 * u.val = 0; rw [(idx9 t).1]; omega
  | ⟨1, _⟩ => show win0_9.index t 1 * 64 + 1 * f.val = f.val; rw [(idx9 t).2]; omega

end Cert.KernelIdeal.Windows

end
-- ==== Proof.RowNorm.lean ====
/-
  Layer normalisation of one row of 64 extended reals followed by x · sigmoid(x), in the two spellings the programs use.

  For a row x the mean is  μ = (Σ_c x_c) / 64  and the (biased) variance  v = (Σ_c (x_c − μ)²) / 64 .  One program scales
  the centred entry by the reciprocal square root,  (x_f − μ) · rsqrt(v + ε) · γ + β , the other divides it by the square
  root,  (x_f − μ) / sqrt(v + ε) · γ + β .  On the extended reals  a / sqrt(w) = a · rsqrt(w)  holds for every  w > 0  (for
  a real w both are a · (√w)⁻¹, for w = +∞ both are a · 0), and  v + ε > 0  ALWAYS: a square y · y is ≥ 0 for every extended
  real y (the infinities included), so is a sum of squares and its quotient by 64, and ε is a positive number. So the two
  spellings agree on every row, finite or not.  The sigmoid is  1 / (1 + e^(−y))  in both; one program writes the
  expression out with the word of 1.0, the other names it.
-/
import Idealize.ShloMosaic.PureOps.Ideal
import Idealize.ShloMosaic.PureOps.Ideal.Laws

noncomputable section

open scoped BigOperators

namespace Cert.RowNorm

open Idealize.ShloMosaic

/-! ## The three literals -/

/-- The word of 64.0 denotes the real 64. -/
theorem ofBits_64 : Ideal.ofBits .f32 0x42800000#32 = ((64 : ℝ) : EReal) := by
  simp [Ideal.ofBits, Ideal.ieee, -EReal.coe_mul]; norm_num

/-- The word of the layer-norm epsilon denotes a positive number. -/
theorem ofBits_eps_pos : 0 < Ideal.ofBits .f32 0x3727C5AC#32 := by
  simp [Ideal.ofBits, Ideal.ieee, -EReal.coe_mul]

/-- The word of 1.0 denotes 1. -/
theorem ofBits_one : Ideal.ofBits .f32 0x3F800000#32 = 1 := by
  simp [Ideal.ofBits, Ideal.ieee, -EReal.coe_mul]; norm_num

/-! ## Two laws of the extended reals -/

/-- A square is nonnegative, at the infinities too: (±∞)·(±∞) = +∞. -/
theorem mul_self_nonneg (y : EReal) : 0 ≤ y * y := by
  rcases le_total 0 y with h | h
  · exact EReal.mul_nonneg h h
  · have : 0 ≤ -y := by simpa using EReal.neg_le_neg_iff.mpr h
    rw [← neg_mul_neg]
    exact EReal.mul_nonneg this this

/-- Dividing by the square root of a positive extended real is multiplying by its reciprocal square root. -/
theorem div_sqrt_eq_mul_rsqrt (a v : EReal) (hv : 0 < v) : Ideal.div a (Ideal.sqrt v) = a * Ideal.rsqrt v := by
  induction v using EReal.rec with
  | bot => exact absurd hv (by simp)
  | top =>
    -- √(+∞) = +∞ and a / +∞ = a · 0, while rsqrt(+∞) = 0
    show Ideal.div a ⊤ = a * 0
    rw [Ideal.div, if_neg (by simp)]
    simp
  | coe r =>
    -- a positive real: both sides are a · (√r)⁻¹
    have hr : 0 < r := by exact_mod_cast hv
    have hs : 0 < Real.sqrt r := Real.sqrt_pos.mpr hr
    have e1 : Ideal.sqrt (r : EReal) = ((Real.sqrt r : ℝ) : EReal) := by
      show (if r < 0 then (⊥ : EReal) else ((Real.sqrt r : ℝ) : EReal)) = _
      rw [if_neg (not_lt.mpr hr.le)]
    have e2 : Ideal.rsqrt (r : EReal) = (((Real.sqrt r)⁻¹ : ℝ) : EReal) := by
      show (if r < 0 then (⊥ : EReal) else if r = 0 then (⊤ : EReal) else (((Real.sqrt r)⁻¹ : ℝ) : EReal)) = _
      rw [if_neg (not_lt.mpr hr.le), if_neg hr.ne']
    rw [e1, e2, Ideal.div_coe hs.ne', one_div]

/-! ## Mean, variance, and the normalised entry in both spellings -/

/-- The mean of a row: its sum divided by the word of 64.0. -/
def mean (x : Fin 64 → EReal) : EReal := Ideal.div (∑ c : Fin 64, x c) (Ideal.ofBits .f32 0x42800000#32)

/-- The biased variance of a row: the mean of the squared deviations. -/
def var (x : Fin 64 → EReal) : EReal :=
  Ideal.div (∑ c : Fin 64, (x c - mean x) * (x c - mean x)) (Ideal.ofBits .f32 0x42800000#32)

/-- The variance is nonnegative: a sum of squares times 1/64. -/
theorem var_nonneg (x : Fin 64 → EReal) : 0 ≤ var x := by
  unfold var
  rw [ofBits_64, Ideal.div_coe (by norm_num)]
  exact EReal.mul_nonneg (Finset.sum_nonneg fun c _ => mul_self_nonneg _) (by exact_mod_cast (by norm_num : (0 : ℝ) ≤ 1 / 64))

/-- So variance plus epsilon is positive, whatever the row holds. -/
theorem var_eps_pos (x : Fin 64 → EReal) : 0 < var x + Ideal.ofBits .f32 0x3727C5AC#32 :=
  lt_of_lt_of_le ofBits_eps_pos (le_add_of_nonneg_left (var_nonneg x))

/-- The normalised entry f of a row with scale g and shift b, by the reciprocal square root. -/
def normRsqrt (x : Fin 64 → EReal) (g b : EReal) (f : Fin 64) : EReal :=
  (x f - mean x) * Ideal.rsqrt (var x + Ideal.ofBits .f32 0x3727C5AC#32) * g + b

/-- The same entry by a division by the square root. -/
def normSqrt (x : Fin 64 → EReal) (g b : EReal) (f : Fin 64) : EReal :=
  Ideal.div (x f - mean x) (Ideal.sqrt (var x + Ideal.ofBits .f32 0x3727C5AC#32)) * g + b

/-- The two spellings of the normalised entry agree, because variance plus epsilon is positive. -/
theorem normSqrt_eq (x : Fin 64 → EReal) (g b : EReal) (f : Fin 64) : normSqrt x g b f = normRsqrt x g b f := by
  unfold normSqrt normRsqrt
  rw [div_sqrt_eq_mul_rsqrt _ _ (var_eps_pos x)]

/-! ## x · sigmoid(x) in both spellings -/

/-- y · sigmoid(y), the sigmoid named. -/
def silu (y : EReal) : EReal := y * Ideal.logistic y

/-- y · (1 / (1 + e^(−y))), written out with the word of 1.0. -/
def siluExpanded (y : EReal) : EReal :=
  y * Ideal.div (Ideal.ofBits .f32 0x3F800000#32) (Ideal.ofBits .f32 0x3F800000#32 + Ideal.exp (-y))

theorem siluExpanded_eq (y : EReal) : siluExpanded y = silu y := by
  unfold siluExpanded silu Ideal.logistic
  rw [ofBits_one]

/-! ## A whole output entry -/

/-- Entry f of the output row: normalise with the entry's own scale and shift, then y · sigmoid(y). -/
def rowOut (x g b : Fin 64 → EReal) (f : Fin 64) : EReal := silu (normRsqrt x (g f) (b f) f)

/-- The same in the other program's spelling. -/
def rowOutExpanded (x g b : Fin 64 → EReal) (f : Fin 64) : EReal := siluExpanded (normSqrt x (g f) (b f) f)

theorem rowOutExpanded_eq (x g b : Fin 64 → EReal) (f : Fin 64) : rowOutExpanded x g b f = rowOut x g b f := by
  unfold rowOutExpanded rowOut
  rw [siluExpanded_eq, normSqrt_eq]

end Cert.RowNorm

end
-- ==== Proof.Spec.lean ====
/-
  What both programs compute, as one function of the five argument arrays, entry by entry, on the extended reals.

  positions P is [4, 4096, 3], W is [64, 4096], bias, gamma, beta are [64]. For a batch b and two points n, j the squared
  distance is  s = (Δ₀·Δ₀ + Δ₁·Δ₁) + Δ₂·Δ₂  with Δ_k = P[b,n,k] − P[b,j,k] ; the distance is  √s  where s > 0 and 0 elsewhere
  (the square root is taken of s where s > 0 and of 1 elsewhere, so it is never taken of 0). The linear layer maps the row
  of distances of point n to  x_f = (Σ_j dist(b,n,j) · W[f,j]) + bias[f] , and the output entry (b, n, f) is that row
  layer-normalised with gamma, beta and passed through y · sigmoid(y) (`RowNorm.rowOut`).
-/
import Idealize.ShloMosaic.PureOps.Ideal
import Idealize.ShloMosaic.Lib.ValueIdx
import proofs.«113791_j3178275799379_1_alg».proof.Proof.RowNorm

noncomputable section

open scoped BigOperators

namespace Cert.Spec

open Idealize.ShloMosaic Idealize.ShloMosaic.ValueIdx

/-- The squared distance from its three coordinate differences' operands: (a₀−b₀)² + (a₁−b₁)² first, then + (a₂−b₂)². -/
def sqOf (a0 a1 a2 b0 b1 b2 : EReal) : EReal :=
  ((a0 - b0) * (a0 - b0) + (a1 - b1) * (a1 - b1)) + (a2 - b2) * (a2 - b2)

/-- The distance from the squared distance: √s where s > 0, else 0; the root is taken of 1 where s is not > 0. -/
def distOf (s : EReal) : EReal :=
  Scalar.select (FloatOps.cmpf (F := Ideal) .ogt s (Ideal.ofBits .f32 0x00000000#32))
    (Ideal.sqrt (Scalar.select (FloatOps.cmpf (F := Ideal) .ogt s (Ideal.ofBits .f32 0x00000000#32)) s
      (Ideal.ofBits .f32 0x3F800000#32)))
    (Ideal.ofBits .f32 0x00000000#32)

/-- The squared distance between points n and j of batch b. -/
def sq (P : (⟨3, ![4, 4096, 3]⟩ : Shape).Idx → EReal) (b : Fin 4) (n j : Fin 4096) : EReal :=
  sqOf (P (ix3 b n (0 : Fin 3))) (P (ix3 b n (1 : Fin 3))) (P (ix3 b n (2 : Fin 3)))
    (P (ix3 b j (0 : Fin 3))) (P (ix3 b j (1 : Fin 3))) (P (ix3 b j (2 : Fin 3)))

/-- Their distance. -/
def dist (P : (⟨3, ![4, 4096, 3]⟩ : Shape).Idx → EReal) (b : Fin 4) (n j : Fin 4096) : EReal := distOf (sq P b n j)

/-- Entry f of the linear layer's row for point n of batch b. -/
def lin (P : (⟨3, ![4, 4096, 3]⟩ : Shape).Idx → EReal) (W : (⟨2, ![64, 4096]⟩ : Shape).Idx → EReal)
    (bias : (⟨1, ![64]⟩ : Shape).Idx → EReal) (b : Fin 4) (n : Fin 4096) (f : Fin 64) : EReal :=
  (∑ j : Fin 4096, dist P b n j * W (ix2 f j)) + bias (ix1 f)

/-- The whole [4, 4096, 64] result. -/
def G (P : (⟨3, ![4, 4096, 3]⟩ : Shape).Idx → EReal) (W : (⟨2, ![64, 4096]⟩ : Shape).Idx → EReal)
    (bias gamma beta : (⟨1, ![64]⟩ : Shape).Idx → EReal) : (⟨3, ![4, 4096, 64]⟩ : Shape).Idx → EReal :=
  fun i => RowNorm.rowOut (fun f => lin P W bias (i 0) (i 1) f) (fun f => gamma (ix1 f)) (fun f => beta (ix1 f)) (i 2)

end Cert.Spec

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibKeepdimsColumn.lean ====
/-
  The layout steps of a row statistic kept as a column (a sum over the last axis with the reduced axis kept at size one),
  read at an index given by coordinates, for any element type and any extents:
  a vector of length a laid out as an [a, 1] column reads, at (i, u), the vector at i;
  an [a, 1] column spread over the b columns of an [a, b] matrix reads, at (i, c), the column at (i, 0);
  and, on the extended reals, the sum over the last axis of an [a, b] matrix reads, at i, the sum over c of the matrix at (i, c).
-/
import Idealize.ShloMosaic.Lib.ValueLayout
import Idealize.ShloMosaic.PureOps.Ideal.Laws

open scoped BigOperators

namespace Cert.LibKeepdimsColumn

open Idealize.ShloMosaic Idealize.ShloMosaic.ValueIdx

variable {α : Type}

/-- A vector of length `a` laid out as an `[a, 1]` column: the entry at `(i, u)` is the vector's entry at `i`,
    whatever the unit coordinate `u` (both have row-major position `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread over the columns of an `[a, b]` matrix: the entry at `(i, c)` is the column's entry in
    row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- On the extended reals, the sum over the last axis of an `[a, b]` matrix, started from the zero word: the entry at `i`
    is the sum over the columns `c` of the matrix's entry at `(i, c)`. (The start word's evidence is typed as a printed
    program carries it: the word equal to itself, which is what the neutral word of a sum unfolds to.) -/
theorem rowSum_apply {a b : ℕ} (src : FVec Ideal (⟨2, ![a, b]⟩ : Shape) .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ c : Fin b, src (ix2 i c) := by
  refine (Ideal.multiReduction_add_single src 0x00000000#32 h hφ hacc (ix1 i)).trans ?_
  refine Finset.sum_congr rfl fun c _ => congrArg src ?_
  funext ax
  match ax with
  | ⟨0, _⟩ => rfl
  | ⟨1, _⟩ => rfl

end Cert.LibKeepdimsColumn
-- ==== Proof.KPayloads.lean ====
/-
  The kernel body's arithmetic, read one entry at a time on the extended reals.

  The kernel walks the 4096 column points in eight blocks of 512. For a block of 1024 row points it holds an accumulator
  of shape [1024, 64]:
    * before the first block the accumulator is a splat of the zero word, which denotes 0 (`zero_apply`);
    * each block adds, at (p, f), the sum over the block's 512 column points q of  dist(p, q) · W(q, f) , where the squared
      distance is ((Δ₀·Δ₀ + Δ₁·Δ₁) + Δ₂·Δ₂) of the three coordinate differences and the distance is its square root where
      the squared distance is above zero and 0 elsewhere, the root being taken of 1 there (`accStep_apply`). The two
      operands of the product are first narrowed to bf16, which is the identity on the extended reals, and the product runs
      into a zero accumulator, so that it is the plain sum over q;
    * after the last block the bias row is added to every row, each row of 64 entries is normalised by its mean and biased
      variance (each a row sum kept as a column, divided by the word of 64.0, and spread back over the 64 columns), scaled
      and shifted entry by entry, and passed through y · sigmoid(y): entry (0, p, f) of the result is `RowNorm.rowOut` of
      row p (`finish_apply`).
  Every step is an index pushed through pointwise operations (which act entry by entry), layout operations (a unit axis
  dropped or added, a column or a row spread over a matrix, a cast onto the same shape) and sums over the last axis.
-/
import proofs.«113791_j3178275799379_1_alg».proof.Proof.Gen.KernelIdeal.Skeleton
import proofs.«113791_j3178275799379_1_alg».proof.Proof.RowNorm
import proofs.«113791_j3178275799379_1_alg».proof.Proof.Spec
import proofs.«113791_j3178275799379_1_alg».proof.Proof.LibDense
import proofs.«113791_j3178275799379_1_alg».proof.Proof.LibKeepdimsColumn
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-! ## Reading the layout steps of the payloads at an index -/

section Layout

variable {α : Type}

/-- A `[1, a, 1]` array viewed as an `[a, 1]` column and spread over `b` columns reads, at `(p, q)`, the array at `(0, p, 0)`. -/
theorem col_apply {a b : ℕ} (x : (⟨3, ![1, a, 1]⟩ : Shape).Idx → α)
    (h1 : (⟨3, ![1, a, 1]⟩ : Shape).ShapeCasts ⟨2, ![a, 1]⟩) (h2 : (⟨2, ![a, 1]⟩ : Shape).Broadcasts ⟨2, ![a, b]⟩)
    (p : Fin a) (q : Fin b) :
    broadcastTo ⟨2, ![a, b]⟩ (shapeCast ⟨2, ![a, 1]⟩ x h1) h2 (ix2 p q) = x (ix3 (0 : Fin 1) p (0 : Fin 1)) :=
  (Cert.LibKeepdimsColumn.broadcastTo_a1_ab_apply _ h2 p q).trans (shapeCast_1ab_ab_apply x h1 p (0 : Fin 1))

/-- A `[1, 1, b]` array viewed as a `[1, b]` row and spread over `a` rows reads, at `(p, q)`, the array at `(0, 0, q)`. -/
theorem row_apply {a b : ℕ} (x : (⟨3, ![1, 1, b]⟩ : Shape).Idx → α)
    (h1 : (⟨3, ![1, 1, b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ x h1) h2 (ix2 p q) = x (ix3 (0 : Fin 1) (0 : Fin 1) q) :=
  (broadcastTo_1b_ab_apply _ h2 p q).trans (shapeCast_1ab_ab_apply x h1 (0 : Fin 1) q)

/-- A `[1, b]` row, cast onto its own shape and spread over `a` rows, reads at `(p, c)` the row's entry `c`. -/
theorem selfRow_apply {a b : ℕ} (x : (⟨2, ![1, b]⟩ : Shape).Idx → α)
    (h1 : (⟨2, ![1, b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ x h1) h2 (ix2 p c) = x (ix2 (0 : Fin 1) c) := by
  rw [shapeCast_self]
  exact broadcastTo_1b_ab_apply x h2 p c

end Layout

/-! ## The zero block -/

/-- The accumulator's initial block: a splat of the zero word, which denotes 0. -/
theorem zero_apply (p : Fin 1024) (f : Fin 64) : k0_pay3 (F := Ideal) (ix2 p f) = 0 := by
  unfold k0_pay3
  rw [shapeCast_self, broadcast_apply]
  exact Ideal.ofBits_zero_f32

/-! ## The distance block -/

/-- Entry `(p, q)` of the squared-distance block: the three coordinate differences of row point `p` and column point `q`,
    squared and summed in the order (first + second) + third. -/
theorem pay4_apply (x0 x1 x2 : Vec Ideal S1x1024x1 .f32) (x3 x4 x5 : Vec Ideal S1x1x512 .f32) (p : Fin 1024) (q : Fin 512) :
    k0_pay4 x0 x1 x2 x3 x4 x5 (ix2 p q)
      = Cert.Spec.sqOf (x0 (ix3 (0 : Fin 1) p (0 : Fin 1))) (x1 (ix3 (0 : Fin 1) p (0 : Fin 1))) (x2 (ix3 (0 : Fin 1) p (0 : Fin 1)))
          (x3 (ix3 (0 : Fin 1) (0 : Fin 1) q)) (x4 (ix3 (0 : Fin 1) (0 : Fin 1) q)) (x5 (ix3 (0 : Fin 1) (0 : Fin 1) q)) := by
  unfold k0_pay4 Cert.Spec.sqOf
  simp only [addf_apply, mulf_apply, subf_apply]
  rw [col_apply x0, col_apply x1, col_apply x2, row_apply x3, row_apply x4, row_apply x5]

/-- Entry `(p, q)` of the block the square root is taken of: the squared distance where it is above zero, the word of 1.0 elsewhere. -/
theorem pay5_apply (x0 x1 x2 : Vec Ideal S1x1024x1 .f32) (x3 x4 x5 : Vec Ideal S1x1x512 .f32) (i : S1024x512.Idx) :
    k0_pay5 x0 x1 x2 x3 x4 x5 i
      = Scalar.select (FloatOps.cmpf (F := Ideal) .ogt (k0_pay4 x0 x1 x2 x3 x4 x5 i) (Ideal.ofBits .f32 0x00000000#32))
          (k0_pay4 x0 x1 x2 x3 x4 x5 i) (Ideal.ofBits .f32 0x3F800000#32) := by
  unfold k0_pay5
  rfl

/-- Entry `(p, q)` of the distance block: the square root of the squared distance where that is above zero, 0 elsewhere. -/
theorem distBlock_apply (x0 x1 x2 : Vec Ideal S1x1024x1 .f32) (x3 x4 x5 : Vec Ideal S1x1x512 .f32) (p : Fin 1024) (q : Fin 512) :
    select (cmpf .ogt (k0_pay4 x0 x1 x2 x3 x4 x5) (broadcast S1024x512 (Scalar.ofBits (F := Ideal) .f32 0x00000000#32)))
        (sqrt (k0_pay5 x0 x1 x2 x3 x4 x5)) (broadcast S1024x512 (Scalar.ofBits (F := Ideal) .f32 0x00000000#32)) (ix2 p q)
      = Cert.Spec.distOf (Cert.Spec.sqOf (x0 (ix3 (0 : Fin 1) p (0 : Fin 1))) (x1 (ix3 (0 : Fin 1) p (0 : Fin 1)))
          (x2 (ix3 (0 : Fin 1) p (0 : Fin 1))) (x3 (ix3 (0 : Fin 1) (0 : Fin 1) q)) (x4 (ix3 (0 : Fin 1) (0 : Fin 1) q))
          (x5 (ix3 (0 : Fin 1) (0 : Fin 1) q))) := by
  rw [← pay4_apply]
  unfold Cert.Spec.distOf
  rw [← pay5_apply]
  rfl

/-! ## One accumulation step -/

/-- One step of the accumulation: the block of distances (narrowed, which changes nothing on the extended reals) times the
    weight block, summed over the 512 column points, added to the accumulator. -/
theorem accStep_apply (x0 x1 x2 : Vec Ideal S1x1024x1 .f32) (x3 x4 x5 : Vec Ideal S1x1x512 .f32) (x6 : Vec Ideal S512x64 .f32)
    (acc : Vec Ideal S1024x64 .f32) (p : Fin 1024) (f : Fin 64) :
    k0_pay1 (k0_pay4 x0 x1 x2 x3 x4 x5) (k0_pay5 x0 x1 x2 x3 x4 x5) (Scalar.ofBits .f32 0x00000000#32) x6 acc (ix2 p f)
      = acc (ix2 p f) + ∑ q : Fin 512, Cert.Spec.distOf (Cert.Spec.sqOf (x0 (ix3 (0 : Fin 1) p (0 : Fin 1)))
          (x1 (ix3 (0 : Fin 1) p (0 : Fin 1))) (x2 (ix3 (0 : Fin 1) p (0 : Fin 1))) (x3 (ix3 (0 : Fin 1) (0 : Fin 1) q))
          (x4 (ix3 (0 : Fin 1) (0 : Fin 1) q)) (x5 (ix3 (0 : Fin 1) (0 : Fin 1) q))) * x6 (ix2 q f) := by
  unfold k0_pay1
  rw [shapeCast_self, addf_apply]
  congr 1
  -- the product into zeros is the sum over the 512 column points
  refine (Cert.Dense.matmul_zero_plain_apply _ rfl rfl rfl rfl rfl rfl none _ _ p f).trans ?_
  refine Finset.sum_congr rfl fun q _ => ?_
  rw [truncf_apply, truncf_apply, shapeCast_self, distBlock_apply]

/-! ## The last step: bias, layer normalisation, y · sigmoid(y) -/

section Pointwise

variable {s : Shape} {φ : FTy}

/-- The reciprocal square root of an array, read at an index. -/
theorem rsqrt_apply (v : FVec Ideal s φ) (i : s.Idx) : rsqrt v i = Ideal.rsqrt (v i) := rfl

/-- The sigmoid of an array, read at an index. -/
theorem logistic_apply (v : FVec Ideal s φ) (i : s.Idx) : logistic v i = Ideal.logistic (v i) := rfl

end Pointwise

/-- The sum over the columns of an `[a, b]` array, read at row `p`: the sum over `c` of the entries `(p, c)`. (The same
    fact as the column-statistics file's, with the start word's evidence typed over the f32 word width as written, which is 32.) -/
theorem rowSum_apply' {a b : ℕ} (src : FVec Ideal (⟨2, ![a, b]⟩ : Shape) .f32)
    (h : (⟨2, ![a, b]⟩ : Shape).Reduces [1] ⟨1, ![a]⟩) (hφ : FKind.Formats .f32)
    (hacc : @Eq (BitVec (FTy.bits .f32)) 0x00000000#32 0x00000000#32) (p : Fin a) :
    multiReduction .add [1] ⟨1, ![a]⟩ src 0x00000000#32 h hφ hacc (ix1 p) = ∑ c : Fin b, src (ix2 p c) :=
  Cert.LibKeepdimsColumn.rowSum_apply src h hφ hacc p

/-- The output block's entry `(0, p, f)`: row `p` of the accumulator plus the bias row, normalised over its 64 entries with
    the entry's own scale and shift, then y · sigmoid(y). -/
theorem finish_apply (A : Vec Ideal S1024x64 .f32) (x7 x8 x9 : Vec Ideal S1x64 .f32) (p : Fin 1024) (f : Fin 64) :
    k0_pay2 A x7 x8 x9 (ix3 (0 : Fin 1) p f)
      = Cert.RowNorm.rowOut (fun c => A (ix2 p c) + x7 (ix2 (0 : Fin 1) c)) (fun c => x8 (ix2 (0 : Fin 1) c))
          (fun c => x9 (ix2 (0 : Fin 1) c)) f := by
  unfold k0_pay2
  rw [shapeCast_ab_1ab_apply]
  simp only [mulf_apply, addf_apply, subf_apply, divf_apply, logistic_apply, rsqrt_apply, selfRow_apply,
    Cert.LibKeepdimsColumn.broadcastTo_a1_ab_apply, Cert.LibKeepdimsColumn.shapeCast_a_a1_apply,
    rowSum_apply' (a := 1024) (b := 64), broadcast_apply]
  -- both sides are now the same expression: the right one is the definitions of the row's mean, variance, normalised
  -- entry and y · sigmoid(y) written out
  rfl

end Cert.KernelIdeal.Payloads

end
-- ==== Proof.BlockSum.lean ====
/-
  A sum over `Fin (a * b)` is the sum over `a` blocks of the sums over the `b` entries of each block:
  entry `k` of block `m` is the index `b * m + k`. Stated for any additive commutative monoid, so it holds
  on the extended reals, where addition is commutative and associative at the infinities too.
-/
import Mathlib.Algebra.BigOperators.Fin
import Mathlib.Logic.Equiv.Fin.Basic

open scoped BigOperators

namespace Cert.BlockSum

/-- `∑ j : Fin (a * b), f j = ∑ m : Fin a, ∑ k : Fin b, f (b * m + k)`. -/
theorem sum_blocks {M : Type*} [AddCommMonoid M] (a b : ℕ) (f : Fin (a * b) → M) :
    ∑ j : Fin (a * b), f j = ∑ m : Fin a, ∑ k : Fin b, f (finProdFinEquiv (m, k)) := by
  rw [← Fintype.sum_prod_type' (fun m k => f (finProdFinEquiv (m, k)))]
  exact (Equiv.sum_comp finProdFinEquiv f).symm

/-- The same with the blocks counted by a natural number below `a` and the length given as a number `n = a * b`: if the
    block function `g s` lists the entries `b * s + q` of `f`, the blocks' sums add up to the whole sum. -/
theorem sum_range_blocks {M : Type*} [AddCommMonoid M] (a b n : ℕ) (hn : n = a * b) (f : Fin n → M) (g : ℕ → Fin b → M)
    (h : ∀ (s : Fin a) (q : Fin b) (j : Fin n), j.val = b * s.val + q.val → g s.val q = f j) :
    ∑ s ∈ Finset.range a, ∑ q : Fin b, g s q = ∑ j : Fin n, f j := by
  subst hn
  rw [sum_blocks a b f, Finset.sum_range]
  refine Finset.sum_congr rfl fun s _ => Finset.sum_congr rfl fun q _ => ?_
  refine h s q _ ?_
  rw [finProdFinEquiv_apply_val]
  show q.val + b * s.val = b * s.val + q.val
  omega

end Cert.BlockSum
-- ==== Proof.KernelValue.lean ====
/-
  What the kernel's result array holds after the run: the specification's function of the five arguments.

  The grid's 128 points come in 16 runs of eight: run r = t / 8 belongs to batch b = t / 32 and row tile i = (t / 8) mod 4,
  and its point number s = t mod 8 handles the reduction tile of columns 512·s … 512·s + 511. The accumulator after point t
  of a run is 0 plus the sum over s' ≤ s of the partial products of the run's points (a fold that adds one addend per
  point). At the run's last point the accumulator therefore holds, at (p, f), the sum over all 4096 points j of
  dist(b, n, j) · W[f, j] for the row n = 1024·i + p — eight blocks of 512 terms are the whole sum —, the epilogue adds the
  bias and normalises the row, and that block is written back to rows 1024·i … 1024·i + 1023 of batch b. The sixteen
  blocks written back cover the [4, 4096, 64] result.
-/
import proofs.«113791_j3178275799379_1_alg».proof.Proof.Gen.KernelIdeal.Value
import proofs.«113791_j3178275799379_1_alg».proof.Proof.Pieces
import proofs.«113791_j3178275799379_1_alg».proof.Proof.Windows
import proofs.«113791_j3178275799379_1_alg».proof.Proof.KPayloads
import proofs.«113791_j3178275799379_1_alg».proof.Proof.Spec
import proofs.«113791_j3178275799379_1_alg».proof.Proof.BlockSum
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces Cert.KernelIdeal.Windows

variable (m : (ℓ : Loc nD τ sig) → Buf (Elt Ideal) ℓ) (ρ : Dev nD → PrngReg)

/-! ## One point's addend -/

/-- The partial product of one point's blocks at (p, f): the sum over the block's 512 columns q of the distance between
    row p of the column blocks and column q of the row blocks, times the weight block's entry (q, f). -/
def blockProd (x0 x1 x2 : Vec Ideal S1x1024x1 .f32) (x3 x4 x5 : Vec Ideal S1x1x512 .f32) (x6 : Vec Ideal S512x64 .f32)
    (p : Fin 1024) (f : Fin 64) : EReal :=
  ∑ q : Fin 512, Cert.Spec.distOf (Cert.Spec.sqOf (x0 (ix3 (0 : Fin 1) p (0 : Fin 1))) (x1 (ix3 (0 : Fin 1) p (0 : Fin 1)))
    (x2 (ix3 (0 : Fin 1) p (0 : Fin 1))) (x3 (ix3 (0 : Fin 1) (0 : Fin 1) q)) (x4 (ix3 (0 : Fin 1) (0 : Fin 1) q))
    (x5 (ix3 (0 : Fin 1) (0 : Fin 1) q))) * x6 (ix2 q f)

/-- One accumulation step adds the blocks' partial product, at every index. -/
theorem accStep_at (x0 x1 x2 : Vec Ideal S1x1024x1 .f32) (x3 x4 x5 : Vec Ideal S1x1x512 .f32) (x6 : Vec Ideal S512x64 .f32)
    (acc : Vec Ideal S1024x64 .f32) (y : S1024x64.Idx) :
    accStep x0 x1 x2 x3 x4 x5 x6 acc y = acc y + blockProd x0 x1 x2 x3 x4 x5 x6 (y 0) (y 1) := by
  obtain ⟨p, f, rfl⟩ : ∃ (p : Fin 1024) (f : Fin 64), y = ix2 p f := ⟨y 0, y 1, eq_ix2 y⟩
  exact Cert.KernelIdeal.Payloads.accStep_apply x0 x1 x2 x3 x4 x5 x6 acc p f

/-- What grid point number n adds to the accumulator (zero for a number past the grid, which is never used). -/
def addend (c : Dev nD) (n : ℕ) : S1024x64.Idx → EReal := fun y =>
  if h : n < cfg0.N then blockProd (blk0 m c ⟨n, h⟩) (blk1 m c ⟨n, h⟩) (blk2 m c ⟨n, h⟩) (blk3 m c ⟨n, h⟩) (blk4 m c ⟨n, h⟩) (blk5 m c ⟨n, h⟩) (blk6 m c ⟨n, h⟩) (y 0) (y 1) else 0

/-! ## The accumulator after each point -/

/-- After point t the accumulator holds 0 plus the addends of its run's points up to t. -/
theorem scratch_eq (c : Dev nD) (t : Fin cfg0.N) (y : S1024x64.Idx) :
    (outsAt0 m c t.val t.isLt).2 y
      = 0 + ∑ s ∈ Finset.range (t.val % 8 + 1), addend m c (8 * (t.val / 8) + s) y := by
  have hN : cfg0.N = 128 := N_0
  have htl := t.isLt
  rw [Cert.KernelIdeal.Value.soutsAt0_0_eq m c t]
  refine Pipeline.accAt_add_apply (β := EReal) _ _ (fun _ => (0 : EReal)) (addend m c) (8 * (t.val / 8)) 7 ?_ ?_
    (t.val % 8) (by omega) _ y
  · -- the run's first point stores zeros and adds its partial product
    intro h i
    have h0 : (8 * (t.val / 8)) % 8 = 0 := by omega
    have h1 : ¬(8 * (t.val / 8)) % 8 = 7 := by omega
    show Cert.KernelIdeal.Value.scAt0_0 m c (8 * (t.val / 8)) h _ i = _
    unfold Cert.KernelIdeal.Value.scAt0_0
    rw [dif_pos h0, dif_neg h1, sout_A]
    refine (accStep_at (blk0 m c ⟨8 * (t.val / 8), h⟩) (blk1 m c ⟨8 * (t.val / 8), h⟩) (blk2 m c ⟨8 * (t.val / 8), h⟩) (blk3 m c ⟨8 * (t.val / 8), h⟩) (blk4 m c ⟨8 * (t.val / 8), h⟩) (blk5 m c ⟨8 * (t.val / 8), h⟩) (blk6 m c ⟨8 * (t.val / 8), h⟩) (k0_pay3 (F := Ideal)) i).trans ?_
    obtain ⟨p, f, rfl⟩ : ∃ (p : Fin 1024) (f : Fin 64), i = ix2 p f := ⟨i 0, i 1, eq_ix2 i⟩
    rw [Cert.KernelIdeal.Payloads.zero_apply]
    unfold addend
    rw [dif_pos h]
  · -- every later point of the run adds its partial product to what the point before left
    intro n h acc i hlt hle
    have h0 : ¬n % 8 = 0 := by omega
    unfold Cert.KernelIdeal.Value.scAt0_0
    rw [dif_neg h0]
    by_cases h1 : n % 8 = 7
    · rw [dif_pos h1, sout_C]
      refine (accStep_at (blk0 m c ⟨n, h⟩) (blk1 m c ⟨n, h⟩) (blk2 m c ⟨n, h⟩) (blk3 m c ⟨n, h⟩) (blk4 m c ⟨n, h⟩) (blk5 m c ⟨n, h⟩) (blk6 m c ⟨n, h⟩) acc i).trans ?_
      unfold addend
      rw [dif_pos h]
    · rw [dif_neg h1, sout_B]
      refine (accStep_at (blk0 m c ⟨n, h⟩) (blk1 m c ⟨n, h⟩) (blk2 m c ⟨n, h⟩) (blk3 m c ⟨n, h⟩) (blk4 m c ⟨n, h⟩) (blk5 m c ⟨n, h⟩) (blk6 m c ⟨n, h⟩) acc i).trans ?_
      unfold addend
      rw [dif_pos h]

/-- At a run's last point the output block is the epilogue of the accumulator that point leaves. -/
theorem out_eq (c : Dev nD) (t : Fin cfg0.N) (h0 : ¬t.val % 8 = 0) (h1 : t.val % 8 = 7) :
    (outsAt0 m c t.val t.isLt).1 = k0_pay2 (outsAt0 m c t.val t.isLt).2 (blk7 m c t) (blk8 m c t) (blk9 m c t) := by
  rw [outsAt0_C m c t h0 h1]
  dsimp only
  rw [out_C, sout_C]

/-! ## The linear layer's row -/

/-- Term j of the row's sum: the distance to point j times W[f, j]. -/
def rowTerm (P : S4x4096x3.Idx → EReal) (W : S64x4096.Idx → EReal) (b : Fin 4) (n : Fin 4096) (f : Fin 64) :
    Fin 4096 → EReal := fun j => Cert.Spec.dist P b n j * W (ix2 f j)

/-- Eight tiles of 512 terms are the sum over all 4096 points. -/
theorem sum_tiles (F : Fin 4096 → EReal) :
    ∑ s ∈ Finset.range 8, ∑ q : Fin 512, F ⟨(512 * s + q.val) % 4096, Nat.mod_lt _ (by norm_num)⟩ = ∑ j : Fin 4096, F j :=
  Cert.BlockSum.sum_range_blocks 8 512 4096 (by norm_num) F
    (fun s q => F ⟨(512 * s + q.val) % 4096, Nat.mod_lt _ (by norm_num)⟩)
    (fun s q j hj => congrArg F (Fin.ext (by
      show (512 * s.val + q.val) % 4096 = j.val
      have := s.isLt; have := q.isLt; omega)))

/-- At a run's last point t, accumulator entry (p, f) plus the bias block's entry f is the linear layer's entry f for
    the row n = 1024·i + p of batch b. -/
theorem row_eq (c : Dev nD) (t : Fin cfg0.N) (h7 : t.val % 8 = 7) (p : Fin 1024) (f : Fin 64) (b : Fin 4) (n : Fin 4096)
    (hb : b.val = t.val / 32) (hn : n.val = 1024 * (t.val / 8 % 4) + p.val) :
    (outsAt0 m c t.val t.isLt).2 (ix2 p f) + blk7 m c t (ix2 (0 : Fin 1) f)
      = Cert.Spec.lin (m ((c : Thread nD τ).loc main_arg0)) (m ((c : Thread nD τ).loc main_arg1))
          (m ((c : Thread nD τ).loc main_arg2)) b n f := by
  have hN : cfg0.N = 128 := N_0
  have htl := t.isLt
  rw [scratch_eq, h7, zero_add, blk7_apply]
  unfold Cert.Spec.lin
  congr 1
  -- point 8·(t/8) + s of the run lists the terms 512·s … 512·s + 511 of the row's sum
  have key : ∀ s, s < 8 → addend m c (8 * (t.val / 8) + s) (ix2 p f)
      = ∑ q : Fin 512, rowTerm (m ((c : Thread nD τ).loc main_arg0)) (m ((c : Thread nD τ).loc main_arg1)) b n f
          ⟨(512 * s + q.val) % 4096, Nat.mod_lt _ (by norm_num)⟩ := by
    intro s hs
    have hlt : 8 * (t.val / 8) + s < cfg0.N := by omega
    unfold addend
    rw [dif_pos hlt]
    unfold blockProd
    refine Finset.sum_congr rfl fun q _ => ?_
    have hq := q.isLt
    have hj : (512 * s + q.val) % 4096 = 512 * ((8 * (t.val / 8) + s) % 8) + q.val := by omega
    have hb' : b.val = (8 * (t.val / 8) + s) / 32 := by omega
    have hn' : n.val = 1024 * ((8 * (t.val / 8) + s) / 8 % 4) + p.val := by omega
    rw [blk0_apply m c ⟨_, hlt⟩ 0 p 0 b n hb' hn', blk1_apply m c ⟨_, hlt⟩ 0 p 0 b n hb' hn',
      blk2_apply m c ⟨_, hlt⟩ 0 p 0 b n hb' hn',
      blk3_apply m c ⟨_, hlt⟩ 0 0 q b ⟨(512 * s + q.val) % 4096, Nat.mod_lt _ (by norm_num)⟩ hb' hj,
      blk4_apply m c ⟨_, hlt⟩ 0 0 q b ⟨(512 * s + q.val) % 4096, Nat.mod_lt _ (by norm_num)⟩ hb' hj,
      blk5_apply m c ⟨_, hlt⟩ 0 0 q b ⟨(512 * s + q.val) % 4096, Nat.mod_lt _ (by norm_num)⟩ hb' hj,
      blk6_apply m c ⟨_, hlt⟩ q f ⟨(512 * s + q.val) % 4096, Nat.mod_lt _ (by norm_num)⟩ hj]
    rfl
  refine (Finset.sum_congr rfl (fun s hs => key s (Finset.mem_range.mp hs))).trans ?_
  -- eight blocks of 512 terms are the sum over all 4096 points
  exact sum_tiles (rowTerm (m ((c : Thread nD τ).loc main_arg0)) (m ((c : Thread nD τ).loc main_arg1)) b n f)

/-! ## The result array -/

/-- The result: the specification's function of the five arguments. -/
abbrev result (c : Dev nD) : Buf (Elt Ideal) ((c : Thread nD τ).loc main_v16) :=
  Cert.Spec.G (m ((c : Thread nD τ).loc main_arg0)) (m ((c : Thread nD τ).loc main_arg1))
    (m ((c : Thread nD τ).loc main_arg2)) (m ((c : Thread nD τ).loc main_arg3)) (m ((c : Thread nD τ).loc main_arg4))

/-- The result at (b, n, f): the linear layer's row of point n of batch b, normalised, at f. -/
theorem result_apply (c : Dev nD) (b : Fin 4) (n : Fin 4096) (f : Fin 64) :
    result m c (ix3 b n f) = Cert.RowNorm.rowOut
      (fun f' => Cert.Spec.lin (m ((c : Thread nD τ).loc main_arg0)) (m ((c : Thread nD τ).loc main_arg1))
        (m ((c : Thread nD τ).loc main_arg2)) b n f')
      (fun f' => m ((c : Thread nD τ).loc main_arg3) (ix1 f')) (fun f' => m ((c : Thread nD τ).loc main_arg4) (ix1 f')) f := rfl

/-- The output window's block index at point t: batch t / 32, row tile (t / 8) mod 4. -/
theorem idx10 : ∀ t : Fin cfg0.N, win0_10.index t (0 : Fin 3) = t.val / 32 ∧ win0_10.index t (1 : Fin 3) = t.val / 8 % 4
    ∧ win0_10.index t (2 : Fin 3) = 0 :=
  (by decide +kernel : ∀ t : Fin grid0.N, _)

/-- What a run's last point writes back is its block of the specification's function. -/
theorem flushed_eq (c : Dev nD) (t : Fin cfg0.N) (hf : (cfg0.win 10).flush t = true) :
    (dats m 0 c).flushed 10 t = ((cfg0.win 10).blk t).view.read (Elt Ideal) (result m c) := by
  have h7 : t.val % 8 = 7 := (flush0_10 t).mp hf
  have hN : cfg0.N = 128 := N_0
  have htl := t.isLt
  rw [Cert.KernelIdeal.Value.flushed10, out_eq m c t (by omega) h7]
  funext j
  obtain ⟨u, p, f, rfl⟩ : ∃ (u : Fin 1) (p : Fin 1024) (f : Fin 64), j = ix3 u p f := ⟨j 0, j 1, j 2, eq_ix3 j⟩
  obtain rfl : u = 0 := Fin.ext (by omega)
  rw [View.read_apply]
  -- block entry (0, p, f) is array entry (t / 32, 1024·((t / 8) mod 4) + p, f)
  have hb : t.val / 32 < 4 := by omega
  have hn : 1024 * (t.val / 8 % 4) + p.val < 4096 := by have := p.isLt; omega
  have e : ((cfg0.win 10).blk t).view.emb (ix3 (0 : Fin 1) p f)
      = ix3 (⟨t.val / 32, hb⟩ : Fin 4) (⟨1024 * (t.val / 8 % 4) + p.val, hn⟩ : Fin 4096) f := by
    funext a
    apply Fin.ext
    match a with
    | ⟨0, _⟩ => show win0_10.index t 0 * 1 + 1 * 0 = t.val / 32; rw [(idx10 t).1]; omega
    | ⟨1, _⟩ => show win0_10.index t 1 * 1024 + 1 * p.val = 1024 * (t.val / 8 % 4) + p.val; rw [(idx10 t).2.1]; omega
    | ⟨2, _⟩ => show win0_10.index t 2 * 64 + 1 * f.val = f.val; rw [(idx10 t).2.2]; omega
  rw [e, result_apply]
  refine (Cert.KernelIdeal.Payloads.finish_apply (outsAt0 m c t.val t.isLt).2 (blk7 m c t) (blk8 m c t) (blk9 m c t) p f).trans ?_
  congr 1
  · funext c'
    exact row_eq m c t h7 p c' _ _ rfl rfl
  · funext c'
    exact blk8_apply m c t 0 c'
  · funext c'
    exact blk9_apply m c t 0 c'

/-- Every entry of the result lies in the block some run's last point writes back. -/
theorem cover (i : S4x4096x64.Idx) :
    ∃ t : Fin cfg0.N, (cfg0.win 10).flush t = true ∧ i ∈ ((cfg0.win 10).blk t).view.set := by
  have hN : cfg0.N = 128 := N_0
  have h0 : (i 0).val < 4 := (i 0).isLt
  have h1 : (i 1).val < 4096 := (i 1).isLt
  have h2 : (i 2).val < 64 := (i 2).isLt
  obtain ⟨tv, htv⟩ : ∃ tv : ℕ, tv = ((i 0).val * 4 + (i 1).val / 1024) * 8 + 7 := ⟨_, rfl⟩
  have ht : tv < cfg0.N := by omega
  refine ⟨⟨tv, ht⟩, (flush0_10 _).mpr (by show tv % 8 = 7; omega), ?_⟩
  show i ∈ ((View.whole main_v16).slice (win0_10.rect ⟨tv, ht⟩)).set
  rw [View.set_slice_whole, Rect.mem_set_unit]
  obtain ⟨e0, e1, e2⟩ := idx10 ⟨tv, ht⟩
  intro a
  match a with
  | ⟨0, _⟩ =>
    show win0_10.index ⟨tv, ht⟩ 0 * 1 ≤ (i 0).val ∧ (i 0).val < win0_10.index ⟨tv, ht⟩ 0 * 1 + 1
    rw [e0]; show tv / 32 * 1 ≤ (i 0).val ∧ (i 0).val < tv / 32 * 1 + 1; omega
  | ⟨1, _⟩ =>
    show win0_10.index ⟨tv, ht⟩ 1 * 1024 ≤ (i 1).val ∧ (i 1).val < win0_10.index ⟨tv, ht⟩ 1 * 1024 + 1024
    rw [e1]; show tv / 8 % 4 * 1024 ≤ (i 1).val ∧ (i 1).val < tv / 8 % 4 * 1024 + 1024; omega
  | ⟨2, _⟩ =>
    show win0_10.index ⟨tv, ht⟩ 2 * 64 ≤ (i 2).val ∧ (i 2).val < win0_10.index ⟨tv, ht⟩ 2 * 64 + 64
    rw [e2]; omega

/-- So the result array ends holding the specification's function. -/
theorem final (c : Dev nD) : (dats m 0 c).arrAt 10 cfg0.N = result m c :=
  (dats m 0 c).arrAt_eq_of_cover 10 (result m c) (flushed_eq m c) cover

/-- The kernel's run, read: the result at the specification's function, the arguments unchanged. -/
theorem run : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.KValue

end
-- ==== Proof.RefValue.lean ====
/-
  The reference program's result, entry by entry, is the specification's function G.

  The reference computes, for a batch b and points n, j, the squared distance as a sum over the three coordinates started
  from the word of 0.0, takes its square root where it is positive (and 0 elsewhere), contracts the row of distances with
  the weight matrix, adds the bias, and layer-normalises each row of 64 entries dividing by the square root of variance
  plus epsilon; the final x · sigmoid(x) is written out as x · (1 / (1 + e^(−x))). Each stage is read at explicit
  coordinates and matched with the specification's name for it; the last step is the law that the "expanded" spelling of
  an output entry equals the named one.
-/
import proofs.«113791_j3178275799379_1_alg».proof.Proof.Gen.ReferenceIdeal.Read
import proofs.«113791_j3178275799379_1_alg».proof.Proof.RowNorm
import proofs.«113791_j3178275799379_1_alg».proof.Proof.Spec
import Idealize.ShloMosaic.Lib.ValueIdx
import Idealize.ShloMosaic.PureOps.Ideal
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

variable (x0 : (⟨S4x4096x3, .f32⟩ : BufTy).Contents (Elt Ideal)) (x1 : (⟨S64x4096, .f32⟩ : BufTy).Contents (Elt Ideal))
  (x2 x3 x4 : (⟨S64, .f32⟩ : BufTy).Contents (Elt Ideal))

/-! ## The squared distance and the distance -/

/-- The first point's coordinate k, broadcast along the second point's axis. -/
theorem v2_at (b : Fin 4) (n j : Fin 4096) (k : Fin 3) :
    val_main_v2 (F := Ideal) x0 (ix4 b n j k) = x0 (ix3 b n k) := by
  rw [val_main_v2_apply, val_main_v0_apply]
  exact congrArg x0 (funext fun a => by match a with | ⟨0, _⟩ => rfl | ⟨1, _⟩ => rfl | ⟨2, _⟩ => rfl)

/-- The second point's coordinate k, broadcast along the first point's axis. -/
theorem v3_at (b : Fin 4) (n j : Fin 4096) (k : Fin 3) :
    val_main_v3 (F := Ideal) x0 (ix4 b n j k) = x0 (ix3 b j k) := by
  rw [val_main_v3_apply, val_main_v1_apply]
  exact congrArg x0 (funext fun a => by match a with | ⟨0, _⟩ => rfl | ⟨1, _⟩ => rfl | ⟨2, _⟩ => rfl)

/-- The squared coordinate difference. -/
theorem v5_at (b : Fin 4) (n j : Fin 4096) (k : Fin 3) :
    val_main_v5 (F := Ideal) x0 (ix4 b n j k)
      = (x0 (ix3 b n k) - x0 (ix3 b j k)) * (x0 (ix3 b n k) - x0 (ix3 b j k)) := by
  rw [val_main_v5_apply, val_main_v4_apply, v2_at, v3_at]
  rfl

/-- The sum over the three coordinates, started from the word of 0.0, is the specification's squared distance. -/
theorem v6_at (b : Fin 4) (n j : Fin 4096) :
    val_main_v6 (F := Ideal) x0 (ix3 b n j) = Cert.Spec.sq x0 b n j := by
  have hk : ∀ k : Fin 3, idx_main_v6 (ix3 b n j) k = ix4 b n j k := fun k =>
    funext fun a => by match a with | ⟨0, _⟩ => rfl | ⟨1, _⟩ => rfl | ⟨2, _⟩ => rfl | ⟨3, _⟩ => rfl
  rw [val_main_v6_apply, val_main_cst_apply, Ideal.ofBits_def, Ideal.ofBits_zero_f32, zero_add, Fin.sum_univ_three,
    hk, hk, hk, v5_at, v5_at, v5_at]
  rfl

/-- The distance: the square root where the squared distance is positive, 0 elsewhere. -/
theorem v13_at (b : Fin 4) (n j : Fin 4096) :
    val_main_v13 (F := Ideal) x0 (ix3 b n j) = Cert.Spec.dist x0 b n j := by
  rw [val_main_v13_apply, val_main_v11_apply, val_main_v12_apply, val_main_v9_apply, val_main_v8_apply,
    val_main_v7_apply, val_main_cst_0_apply, val_main_v10_apply, val_main_cst_2_apply,
    val_main_call0_v1_apply, val_main_call0_v0_apply, val_main_cst_1_apply,
    val_main_call1_v1_apply, val_main_call1_v0_apply, val_main_cst_3_apply, v6_at]
  rfl

/-! ## The linear layer -/

/-- The contraction with the weight matrix plus the bias is the specification's linear layer. -/
theorem v17_at (b : Fin 4) (n : Fin 4096) (f : Fin 64) :
    val_main_v17 (F := Ideal) x0 x1 x2 (ix3 b n f) = Cert.Spec.lin x0 x1 x2 b n f := by
  have el : ∀ k : Fin 4096, lidx_main_v14 (ix3 b n f) k = ix3 b n k := fun k =>
    funext fun a => by match a with | ⟨0, _⟩ => rfl | ⟨1, _⟩ => rfl | ⟨2, _⟩ => rfl
  have er : ∀ k : Fin 4096, ridx_main_v14 (ix3 b n f) k = ix2 f k := fun k =>
    funext fun a => by match a with | ⟨0, _⟩ => rfl | ⟨1, _⟩ => rfl
  have eb : idx_main_v15 (idx_main_v16 (ix3 b n f)) = ix1 f :=
    funext fun a => by match a with | ⟨0, _⟩ => rfl
  rw [val_main_v17_apply, val_main_v14_apply, val_main_v16_apply, val_main_v15_apply, eb, Ideal.addf_def]
  unfold Cert.Spec.lin
  refine congrArg (· + x2 (ix1 f)) (Finset.sum_congr rfl fun k _ => ?_)
  rw [el, er, v13_at]

/-! ## Mean and variance of a row -/

/-- The row sum, started from the word of 0.0. -/
theorem v18_at (b : Fin 4) (n : Fin 4096) :
    val_main_v18 (F := Ideal) x0 x1 x2 (ix2 b n) = ∑ c : Fin 64, Cert.Spec.lin x0 x1 x2 b n c := by
  have hk : ∀ c : Fin 64, idx_main_v18 (ix2 b n) c = ix3 b n c := fun c =>
    funext fun a => by match a with | ⟨0, _⟩ => rfl | ⟨1, _⟩ => rfl | ⟨2, _⟩ => rfl
  rw [val_main_v18_apply, val_main_cst_4_apply, Ideal.ofBits_def, Ideal.ofBits_zero_f32, zero_add]
  refine Finset.sum_congr rfl fun c _ => ?_
  rw [hk, v17_at]

/-- The row's mean. -/
theorem v21_at (b : Fin 4) (n : Fin 4096) :
    val_main_v21 (F := Ideal) x0 x1 x2 (ix3 b n (0 : Fin 1))
      = Cert.RowNorm.mean (fun c => Cert.Spec.lin x0 x1 x2 b n c) := by
  have hi : idx_main_v19 (ix3 b n (0 : Fin 1)) = ix2 b n :=
    funext fun a => by match a with | ⟨0, _⟩ => rfl | ⟨1, _⟩ => rfl
  rw [val_main_v21_apply, val_main_v19_apply, val_main_v20_apply, val_main_cst_5_apply, hi, v18_at]
  rfl

/-- The centred entry. -/
theorem v23_at (b : Fin 4) (n : Fin 4096) (f : Fin 64) :
    val_main_v23 (F := Ideal) x0 x1 x2 (ix3 b n f)
      = Cert.Spec.lin x0 x1 x2 b n f - Cert.RowNorm.mean (fun c => Cert.Spec.lin x0 x1 x2 b n c) := by
  have hi : idx_main_v22 (ix3 b n f) = ix3 b n (0 : Fin 1) :=
    funext fun a => by match a with | ⟨0, _⟩ => rfl | ⟨1, _⟩ => rfl | ⟨2, _⟩ => rfl
  rw [val_main_v23_apply, val_main_v22_apply, hi, v21_at, v17_at]
  rfl

/-- The sum of the squared deviations, started from the word of 0.0. -/
theorem v25_at (b : Fin 4) (n : Fin 4096) :
    val_main_v25 (F := Ideal) x0 x1 x2 (ix2 b n)
      = ∑ c : Fin 64, (Cert.Spec.lin x0 x1 x2 b n c - Cert.RowNorm.mean (fun c => Cert.Spec.lin x0 x1 x2 b n c))
          * (Cert.Spec.lin x0 x1 x2 b n c - Cert.RowNorm.mean (fun c => Cert.Spec.lin x0 x1 x2 b n c)) := by
  have hk : ∀ c : Fin 64, idx_main_v25 (ix2 b n) c = ix3 b n c := fun c =>
    funext fun a => by match a with | ⟨0, _⟩ => rfl | ⟨1, _⟩ => rfl | ⟨2, _⟩ => rfl
  rw [val_main_v25_apply, val_main_cst_6_apply, Ideal.ofBits_def, Ideal.ofBits_zero_f32, zero_add]
  refine Finset.sum_congr rfl fun c _ => ?_
  rw [hk, val_main_v24_apply, v23_at]
  rfl

/-- The row's biased variance. -/
theorem v28_at (b : Fin 4) (n : Fin 4096) :
    val_main_v28 (F := Ideal) x0 x1 x2 (ix3 b n (0 : Fin 1))
      = Cert.RowNorm.var (fun c => Cert.Spec.lin x0 x1 x2 b n c) := by
  have hi : idx_main_v26 (ix3 b n (0 : Fin 1)) = ix2 b n :=
    funext fun a => by match a with | ⟨0, _⟩ => rfl | ⟨1, _⟩ => rfl
  rw [val_main_v28_apply, val_main_v26_apply, val_main_v27_apply, val_main_cst_7_apply, hi, v25_at]
  rfl

/-! ## The normalised entry and the output -/

/-- The normalised entry, by a division by the square root of variance plus epsilon. -/
theorem v41_at (b : Fin 4) (n : Fin 4096) (f : Fin 64) :
    val_main_v41 (F := Ideal) x0 x1 x2 x3 x4 (ix3 b n f)
      = Cert.RowNorm.normSqrt (fun c => Cert.Spec.lin x0 x1 x2 b n c) (x3 (ix1 f)) (x4 (ix1 f)) f := by
  have hi : idx_main_v29 (ix3 b n f) = ix3 b n (0 : Fin 1) :=
    funext fun a => by match a with | ⟨0, _⟩ => rfl | ⟨1, _⟩ => rfl | ⟨2, _⟩ => rfl
  have hs : idx_main_v34 (ix3 b n f) = ix3 b n (0 : Fin 1) :=
    funext fun a => by match a with | ⟨0, _⟩ => rfl | ⟨1, _⟩ => rfl | ⟨2, _⟩ => rfl
  have hg : idx_main_v36 (idx_main_v37 (ix3 b n f)) = ix1 f :=
    funext fun a => by match a with | ⟨0, _⟩ => rfl
  have hb : idx_main_v39 (idx_main_v40 (ix3 b n f)) = ix1 f :=
    funext fun a => by match a with | ⟨0, _⟩ => rfl
  rw [val_main_v41_apply, val_main_v38_apply, val_main_v35_apply, val_main_v30_apply, val_main_v29_apply, hi, v21_at,
    v17_at, val_main_v34_apply, hs, val_main_v33_apply, val_main_v32_apply, v28_at, val_main_v31_apply,
    val_main_cst_8_apply, val_main_v37_apply, val_main_v36_apply, hg, val_main_v40_apply, val_main_v39_apply, hb]
  rfl

/-- An output entry, in the reference's spelling: the normalised entry times 1 / (1 + e^(−y)). -/
theorem v48_at (b : Fin 4) (n : Fin 4096) (f : Fin 64) :
    val_main_v48 (F := Ideal) x0 x1 x2 x3 x4 (ix3 b n f)
      = Cert.RowNorm.rowOutExpanded (fun c => Cert.Spec.lin x0 x1 x2 b n c) (fun c => x3 (ix1 c)) (fun c => x4 (ix1 c)) f := by
  rw [val_main_v48_apply, val_main_v47_apply, val_main_v46_apply, val_main_cst_10_apply, val_main_v45_apply,
    val_main_v44_apply, val_main_cst_9_apply, val_main_v43_apply, val_main_v42_apply, v41_at]
  rfl

/-- The reference program's result is the specification's function. -/
theorem ref_eq :
    Read.val_main_v48 (F := Ideal) x0 x1 x2 x3 x4 = Cert.Spec.G x0 x1 x2 x3 x4 := by
  funext i
  obtain ⟨b, n, f, rfl⟩ : ∃ b n f, i = ix3 b n f := ⟨i 0, i 1, i 2, eq_ix3 i⟩
  rw [v48_at, Cert.RowNorm.rowOutExpanded_eq]
  rfl

end Cert.ReferenceIdeal.RefValue

end
-- ==== Proof.lean ====
/-
  Pairwise-distance features through a linear layer, layer normalisation and x · sigmoid(x): the tiled kernel against the
  plain reference, on the extended reals.

  For positions P [4, 4096, 3], W [64, 4096] and bias, gamma, beta [64], both programs compute, for every batch b, point n
  and feature f: the distances dist(b, n, j) to all 4096 points j of the batch (√ of the squared distance where it is
  positive, 0 elsewhere), the row x_f = (Σ_j dist(b, n, j) · W[f, j]) + bias[f], its layer normalisation with gamma, beta,
  and y · sigmoid(y) of that. They differ in arrangement only. The reference forms the whole [4, 4096, 4096] distance array
  and one product; the kernel forms a [1024, 512] tile of distances per grid point, multiplies it with the matching 512
  rows of the transposed W and adds the partial products of the eight reduction tiles in an accumulator, which is the same
  sum because addition on the extended reals is commutative and associative at the infinities too. The reference sums the
  three squared coordinate differences with a reduction from 0, the kernel adds them in order. The reference divides by
  √(variance + ε) where the kernel multiplies by rsqrt(variance + ε): equal because variance + ε is positive for every row,
  finite or not. The reference writes the sigmoid out as 1 / (1 + e^(−y)), the kernel names it. No law used needs the
  inputs to be finite, so the precondition is not opened.

  The modules: RowNorm (the normalisation laws), Spec (the common function G of the arguments), RefValue (the reference's
  result is G), Pieces, Windows, KPayloads and KernelValue (the kernel's result array is G), BlockSum (a sum by blocks).
  The three frames are the generated ones (the reference's is its generated run with the result dropped); the
  idealization rewrote no operation.
-/
import proofs.«113791_j3178275799379_1_alg».proof.Defs
import proofs.«113791_j3178275799379_1_alg».proof.Proof.Gen.Kernel
import proofs.«113791_j3178275799379_1_alg».proof.Proof.Gen.Kernel.Skeleton
import proofs.«113791_j3178275799379_1_alg».proof.Proof.Gen.Kernel.Launch
import proofs.«113791_j3178275799379_1_alg».proof.Proof.Gen.Kernel.Points
import proofs.«113791_j3178275799379_1_alg».proof.Proof.Gen.Kernel.Frame
import proofs.«113791_j3178275799379_1_alg».proof.Proof.Gen.KernelIdeal
import proofs.«113791_j3178275799379_1_alg».proof.Proof.Gen.KernelIdeal.Skeleton
import proofs.«113791_j3178275799379_1_alg».proof.Proof.Gen.KernelIdeal.Launch
import proofs.«113791_j3178275799379_1_alg».proof.Proof.Gen.KernelIdeal.Points
import proofs.«113791_j3178275799379_1_alg».proof.Proof.Gen.KernelIdeal.Frame
import proofs.«113791_j3178275799379_1_alg».proof.Proof.Gen.ReferenceIdeal
import proofs.«113791_j3178275799379_1_alg».proof.Proof.Gen.Pre_finite_inputs
import proofs.«113791_j3178275799379_1_alg».proof.Proof.Gen.KernelIdeal.Value
import proofs.«113791_j3178275799379_1_alg».proof.Proof.Gen.ReferenceIdeal.Run
import proofs.«113791_j3178275799379_1_alg».proof.Proof.Gen.ReferenceIdeal.Read
import proofs.«113791_j3178275799379_1_alg».proof.Proof.KernelValue
import proofs.«113791_j3178275799379_1_alg».proof.Proof.RefValue
import Idealize.ShloMosaic.Adequacy
import Idealize.ShloMosaic.Init

noncomputable section

namespace Cert.Proof

open Idealize.ShloMosaic Idealize.SL.Sem

/-- Both idealized programs, run from memories that agree on the arguments, end with the common function G of those
    arguments in their result arrays: the kernel by its value run, the reference by its generated run read as G. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
